-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x3 : Shape := ⟨3, ![64, 1024, 3]⟩
abbrev S4096x3 : Shape := ⟨2, ![4096, 3]⟩
abbrev S1024x2048 : Shape := ⟨2, ![1024, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S_ : Shape := ⟨0, ![]⟩

class Facts : Prop where
  bcast_S_S64x1024x3 : S_.BroadcastsInDim S64x1024x3 (![] : Fin 0 → Fin S64x1024x3.rank)
  reducesTo_S64x1024x3_S_d0_1_2 : S64x1024x3.ReducesTo [0, 1, 2] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S2048 .f32) (main_arg8 : FVec F S2048x512 .f32) (main_arg9 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x512 .f32) (main_arg9 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x1024x3 .f32) (main_arg1 : FVec F S4096x3 .f32) (main_arg2 : FVec F S1024x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x512 .f32) (main_arg9 : FVec F S512 .f32) : IVec S_ 1 :=
  let main_v0 : FVec F S64x1024x3 .f32 := Host.absf main_arg0
  let main_cst : FVec F S_ .f32 := constant S_ .f32 0x7F800000#32
  let main_v1 : FVec F S64x1024x3 .f32 := broadcastInDim S64x1024x3 ![] bcast_S_S64x1024x3 main_cst
  let main_v2 : IVec S64x1024x3 1 := cmpf .olt main_v0 main_v1
  let main_c : IVec S_ 1 := constantI S_ 1 1#1
  let main_v3 : IVec S_ 1 := (fun x v => Host.reduce IntOp.andi x v reducesTo_S64x1024x3_S_d0_1_2 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S64x1024x3 : Shape := ⟨3, ![64, 1024, 3]⟩
abbrev S4096x3 : Shape := ⟨2, ![4096, 3]⟩
abbrev S1024x2048 : Shape := ⟨2, ![1024, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S65536x3 : Shape := ⟨2, ![65536, 3]⟩
abbrev S3x4096 : Shape := ⟨2, ![3, 4096]⟩
abbrev S65536x1 : Shape := ⟨2, ![65536, 1]⟩
abbrev S2048x3 : Shape := ⟨2, ![2048, 3]⟩
abbrev S3x512 : Shape := ⟨2, ![3, 512]⟩
abbrev S2048x1 : Shape := ⟨2, ![2048, 1]⟩
abbrev S1x512 : Shape := ⟨2, ![1, 512]⟩
abbrev S64x1024 : Shape := ⟨2, ![64, 1024]⟩
abbrev S64x512 : Shape := ⟨2, ![64, 512]⟩
abbrev S64x2048 : Shape := ⟨2, ![64, 2048]⟩
abbrev S1x2048 : Shape := ⟨2, ![1, 2048]⟩

abbrev nBuf : Space → Nat
  | .hbm => 19
  | .vmem => 17
  | .smem => 0
  | _ => 0

abbrev bufTy : (tb : Table) → Fin (tcTables nBuf tb) → BufTy
  | .hbm, ⟨0, _⟩ => ⟨S64x1024x3, .f32⟩
  | .hbm, ⟨1, _⟩ => ⟨S4096x3, .f32⟩
  | .hbm, ⟨2, _⟩ => ⟨S1024x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S512, .f32⟩
  | .hbm, ⟨10, _⟩ => ⟨S65536x3, .f32⟩
  | .hbm, ⟨11, _⟩ => ⟨S3x4096, .f32⟩
  | .hbm, ⟨12, _⟩ => ⟨S65536x1, .f32⟩
  | .hbm, ⟨13, _⟩ => ⟨S64x1024, .f32⟩
  | .hbm, ⟨14, _⟩ => ⟨S1024x2048, .bf16⟩
  | .hbm, ⟨15, _⟩ => ⟨S2048x2048, .bf16⟩
  | .hbm, ⟨16, _⟩ => ⟨S2048x2048, .bf16⟩
  | .hbm, ⟨17, _⟩ => ⟨S2048x512, .bf16⟩
  | .hbm, ⟨18, _⟩ => ⟨S64x512, .f32⟩
  | .local _ .vmem, ⟨0, _⟩ => ⟨S2048x3, .f32⟩
  | .local _ .vmem, ⟨1, _⟩ => ⟨S2048x3, .f32⟩
  | .local _ .vmem, ⟨2, _⟩ => ⟨S3x512, .f32⟩
  | .local _ .vmem, ⟨3, _⟩ => ⟨S3x512, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S64x1024, .f32⟩
  | .local _ .vmem, ⟨8, _⟩ => ⟨S1024x2048, .bf16⟩
  | .local _ .vmem, ⟨9, _⟩ => ⟨S2048, .f32⟩
  | .local _ .vmem, ⟨10, _⟩ => ⟨S2048x2048, .bf16⟩
  | .local _ .vmem, ⟨11, _⟩ => ⟨S2048, .f32⟩
  | .local _ .vmem, ⟨12, _⟩ => ⟨S2048x2048, .bf16⟩
  | .local _ .vmem, ⟨13, _⟩ => ⟨S2048, .f32⟩
  | .local _ .vmem, ⟨14, _⟩ => ⟨S2048x512, .bf16⟩
  | .local _ .vmem, ⟨15, _⟩ => ⟨S512, .f32⟩
  | .local _ .vmem, ⟨16, _⟩ => ⟨S64x512, .f32⟩
  | _, _ => ⟨S64x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S64x1024x3_S65536x3 : S64x1024x3.ShapeCasts S65536x3
  transposes_S4096x3_S3x4096_1_0 : S4096x3.Transposes [1, 0] S3x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S3x512_S3x512_0_0 : ∀ a, (![0, 0] : Fin 2 → Nat) a + S3x512.size a ≤ S3x512.size a
  h_S3x512 : 0 < S3x512.numel
  shapeCasts_S3x512_S3x512 : S3x512.ShapeCasts S3x512
  reduces_S2048x3_S2048 : S2048x3.Reduces [1] S2048
  shapeCasts_S2048_S2048x1 : S2048.ShapeCasts S2048x1
  reduces_S3x512_S512 : S3x512.Reduces [0] S512
  shapeCasts_S512_S1x512 : S512.ShapeCasts S1x512
  bitsLt_bf16_f32 : FTy.bits .bf16 < FTy.bits .f32
  broadcasts_S2048x1_S2048x512 : S2048x1.Broadcasts S2048x512
  broadcasts_S1x512_S2048x512 : S1x512.Broadcasts S2048x512
  reduces_S2048x512_S2048 : S2048x512.Reduces [1] S2048
  shapeCasts_S65536x1_S64x1024 : S65536x1.ShapeCasts S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S2048x3_S3x512_S2048x512_1_0_0_1_n_n_wf : DotDims.WF S2048x3 S3x512 S2048x512 [1] [0] [0] [1] [] []
  dot_S64x1024_S1024x2048_S64x2048_1_0_0_1_n_n_wf : DotDims.WF S64x1024 S1024x2048 S64x2048 [1] [0] [0] [1] [] []
  dot_S64x2048_S2048x2048_S64x2048_1_0_0_1_n_n_wf : DotDims.WF S64x2048 S2048x2048 S64x2048 [1] [0] [0] [1] [] []
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S65536x3.size a
  hwx0_0 : ∀ i : grid0.Coords, EltTy.bits .f32 = 32 ∨ (Rect.block (s := S65536x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x4096.size a
  hwx0_1 : ∀ i : grid0.Coords, EltTy.bits .f32 = 32 ∨ (Rect.block (s := S3x4096) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S2048.size a
  hwx1_4 : ∀ i : grid1.Coords, EltTy.bits .f32 = 32 ∨ (Rect.block (s := S2048) S2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048.size a ≤ S2048.size a
  hwx1_6 : ∀ i : grid1.Coords, EltTy.bits .f32 = 32 ∨ (Rect.block (s := S2048) S2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x512.size a ≤ S2048x512.size a
  hwx1_7 : ∀ i : grid1.Coords, EltTy.bits .bf16 = 32 ∨ (Rect.block (s := S2048x512) S2048x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x512.size a ≤ S64x512.size a
  hwx1_9 : ∀ i : grid1.Coords, EltTy.bits .f32 = 32 ∨ (Rect.block (s := S64x512) S64x512.size (cc1_transform_9 i) (hinb1_9 i)).WholeWords (EltTy.packing .f32)

variable [Facts₀]

def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_v0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S2048x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S64x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S64x1024x3 : Shape := ⟨3, ![64, 1024, 3]⟩
abbrev S4096x3 : Shape := ⟨2, ![4096, 3]⟩
abbrev S1024x2048 : Shape := ⟨2, ![1024, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S_ : Shape := ⟨0, ![]⟩
abbrev S64x1024 : Shape := ⟨2, ![64, 1024]⟩
abbrev S64x1024x1 : Shape := ⟨3, ![64, 1024, 1]⟩
abbrev S4096 : Shape := ⟨1, ![4096]⟩
abbrev S64x1024x4096 : Shape := ⟨3, ![64, 1024, 4096]⟩
abbrev S1x1x4096 : Shape := ⟨3, ![1, 1, 4096]⟩
abbrev S64x2048 : Shape := ⟨2, ![64, 2048]⟩
abbrev S1x2048 : Shape := ⟨2, ![1, 2048]⟩
abbrev S64x512 : Shape := ⟨2, ![64, 512]⟩
abbrev S1x512 : Shape := ⟨2, ![1, 512]⟩

abbrev nBuf : Space → Nat
  | .hbm => 57
  | .vmem => 0
  | .smem => 0
  | _ => 0

abbrev bufTy : (tb : Table) → Fin (tcTables nBuf tb) → BufTy
  | .hbm, ⟨0, _⟩ => ⟨S64x1024x3, .f32⟩
  | .hbm, ⟨1, _⟩ => ⟨S4096x3, .f32⟩
  | .hbm, ⟨2, _⟩ => ⟨S1024x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S512, .f32⟩
  | .hbm, ⟨10, _⟩ => ⟨S64x1024x3, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S4096x3, .f32⟩
  | .hbm, ⟨15, _⟩ => ⟨S_, .f32⟩
  | .hbm, ⟨16, _⟩ => ⟨S4096, .f32⟩
  | .hbm, ⟨17, _⟩ => ⟨S64x1024x4096, .f32⟩
  | .hbm, ⟨18, _⟩ => ⟨S1x1x4096, .f32⟩
  | .hbm, ⟨19, _⟩ => ⟨S64x1024x4096, .f32⟩
  | .hbm, ⟨20, _⟩ => ⟨S64x1024x4096, .f32⟩
  | .hbm, ⟨21, _⟩ => ⟨S64x1024x4096, .f32⟩
  | .hbm, ⟨22, _⟩ => ⟨S_, .f32⟩
  | .hbm, ⟨23, _⟩ => ⟨S64x1024x4096, .f32⟩
  | .hbm, ⟨24, _⟩ => ⟨S64x1024x4096, .f32⟩
  | .hbm, ⟨25, _⟩ => ⟨S64x1024x4096, .f32⟩
  | .hbm, ⟨26, _⟩ => ⟨S_, .f32⟩
  | .hbm, ⟨27, _⟩ => ⟨S64x1024x4096, .f32⟩
  | .hbm, ⟨28, _⟩ => ⟨S64x1024x4096, .f32⟩
  | .hbm, ⟨29, _⟩ => ⟨S64x1024x4096, .f32⟩
  | .hbm, ⟨30, _⟩ => ⟨S_, .f32⟩
  | .hbm, ⟨31, _⟩ => ⟨S64x1024, .f32⟩
  | .hbm, ⟨32, _⟩ => ⟨S64x2048, .f32⟩
  | .hbm, ⟨33, _⟩ => ⟨S1x2048, .f32⟩
  | .hbm, ⟨34, _⟩ => ⟨S64x2048, .f32⟩
  | .hbm, ⟨35, _⟩ => ⟨S64x2048, .f32⟩
  | .hbm, ⟨36, _⟩ => ⟨S_, .f32⟩
  | .hbm, ⟨37, _⟩ => ⟨S64x2048, .f32⟩
  | .hbm, ⟨38, _⟩ => ⟨S64x2048, .f32⟩
  | .hbm, ⟨39, _⟩ => ⟨S64x2048, .f32⟩
  | .hbm, ⟨40, _⟩ => ⟨S1x2048, .f32⟩
  | .hbm, ⟨41, _⟩ => ⟨S64x2048, .f32⟩
  | .hbm, ⟨42, _⟩ => ⟨S64x2048, .f32⟩
  | .hbm, ⟨43, _⟩ => ⟨S_, .f32⟩
  | .hbm, ⟨44, _⟩ => ⟨S64x2048, .f32⟩
  | .hbm, ⟨45, _⟩ => ⟨S64x2048, .f32⟩
  | .hbm, ⟨46, _⟩ => ⟨S64x2048, .f32⟩
  | .hbm, ⟨47, _⟩ => ⟨S1x2048, .f32⟩
  | .hbm, ⟨48, _⟩ => ⟨S64x2048, .f32⟩
  | .hbm, ⟨49, _⟩ => ⟨S64x2048, .f32⟩
  | .hbm, ⟨50, _⟩ => ⟨S_, .f32⟩
  | .hbm, ⟨51, _⟩ => ⟨S64x2048, .f32⟩
  | .hbm, ⟨52, _⟩ => ⟨S64x2048, .f32⟩
  | .hbm, ⟨53, _⟩ => ⟨S64x512, .f32⟩
  | .hbm, ⟨54, _⟩ => ⟨S1x512, .f32⟩
  | .hbm, ⟨55, _⟩ => ⟨S64x512, .f32⟩
  | .hbm, ⟨56, _⟩ => ⟨S64x512, .f32⟩
  | _, _ => ⟨S64x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_cst : Ref sig .tc := ⟨.hbm, 36, rfl⟩
abbrev main_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_cst : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S64x1024x3_S64x1024_d2 : S64x1024x3.ReducesTo [2] S64x1024
  h_S_ : 0 < S_.numel
  bcast_S64x1024_S64x1024x1_0_1 : S64x1024.BroadcastsInDim S64x1024x1 (![0, 1] : Fin 2 → Fin S64x1024x1.rank)
  reducesTo_S4096x3_S4096_d1 : S4096x3.ReducesTo [1] S4096
  bcast_S4096_S1x1x4096_2 : S4096.BroadcastsInDim S1x1x4096 (![2] : Fin 1 → Fin S1x1x4096.rank)
  bcast_S64x1024x1_S64x1024x4096_0_1_2 : S64x1024x1.BroadcastsInDim S64x1024x4096 (![0, 1, 2] : Fin 3 → Fin S64x1024x4096.rank)
  bcast_S1x1x4096_S64x1024x4096_0_1_2 : S1x1x4096.BroadcastsInDim S64x1024x4096 (![0, 1, 2] : Fin 3 → Fin S64x1024x4096.rank)
  bcast_S_S64x1024x4096 : S_.BroadcastsInDim S64x1024x4096 (![] : Fin 0 → Fin S64x1024x4096.rank)
  reducesTo_S64x1024x4096_S64x1024_d2 : S64x1024x4096.ReducesTo [2] S64x1024
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  dot_S64x1024x3_S4096x3_S64x1024x4096_2_1_01_0_n_n_wf : DotDims.WF S64x1024x3 S4096x3 S64x1024x4096 [2] [1] [0, 1] [0] [] []
  dot_S64x1024_S1024x2048_S64x2048_1_0_0_1_n_n_wf : DotDims.WF S64x1024 S1024x2048 S64x2048 [1] [0] [0] [1] [] []
  dot_S64x2048_S2048x2048_S64x2048_1_0_0_1_n_n_wf : DotDims.WF S64x2048 S2048x2048 S64x2048 [1] [0] [0] [1] [] []
  dot_S64x2048_S2048x512_S64x512_1_0_0_1_n_n_wf : DotDims.WF S64x2048 S2048x512 S64x512 [1] [0] [0] [1] [] []

variable [Facts₀]

def dot_S64x1024x3_S4096x3_S64x1024x4096_2_1_01_0_n_n : DotDims S64x1024x3 S4096x3 S64x1024x4096 where
  lhsContracting := [2]
  rhsContracting := [1]
  lhsNonContracting := [0, 1]
  rhsNonContracting := [0]
  lhsBatch := []
  rhsBatch := []
  wf := dot_S64x1024x3_S4096x3_S64x1024x4096_2_1_01_0_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

class Facts : Prop extends Facts₀ where

variable [Facts]
-- ==== Proof.K.Base.lean ====
/-
  What the hand-written frame of this program's two kernel regions shares: the two branch conditions of the
  distance kernel decided over its 32 x 8 grid (the accumulator is reset where the second coordinate is 0, and
  copied out where it is 7), where its output window is idle, the staging memrefs by name, and the class invariant
  opened at the scratch accumulator.
-/
import proofs.«178117_j33715493273844_1_alg».proof.Proof.Gen.Kernel.Launch
import proofs.«178117_j33715493273844_1_alg».proof.Proof.Gen.Kernel.Skeleton
import proofs.«178117_j33715493273844_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The distance kernel's two conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is copied to the output block: the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile of a row the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile of a row it is live. -/
theorem liveAt0_2 : ∀ t : Fin cfg0.N, cond0_1 (grid0.coords t) → cfg0.idle 2 (grid0.coords t) = false := by decide +kernel

/-! ## The staging memrefs at a point, as the pipeline passes them -/

abbrev ms0_0 (t : Fin cfg0.N) : Memref sig .tc .vmem S2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S2048x1 .f32 := Memref.whole cc0_scratch0

/-! ## The class invariant, opened at the accumulator -/

/-- The scoped buffers of the core that are neither a staging buffer of the distance kernel nor its accumulator
    (the other kernel's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- The class invariant of the distance kernel's region is: the accumulator whole at some contents, the other
    scoped buffers, and the generator register at some state. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

end Cert.Kernel.Hand

end
-- ==== Proof.K.Run0.lean ====
/-
  The distance kernel's body on whole staging memrefs, in each of its three control cases. One grid point loads a
  tile of 2048 points and a tile of 512 basis vectors, computes every pairwise distance of the two tiles and each
  point's minimum over the tile, and folds that into the accumulator: at the first tile of a row the accumulator is
  first set to +infinity; at the last the accumulator is also copied to the output block. The accumulator's
  contents after the point are the second payload of the body at the two loaded tiles and at what the accumulator
  held (the first payload, the constant +infinity, after a reset).
-/
import proofs.«178117_j33715493273844_1_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator after one point: each row's minimum of the tile's distances, folded into `a`. -/
def tileAcc (x0 : Vec F S2048x3 .f32) (x1 : Vec F S3x512 .f32) (a : Vec F S2048x1 .f32) : Vec F S2048x1 .f32 :=
  k0_pay2 x0 x1 a

/-- The accumulator after a reset: +infinity in every row. -/
def accInit : Vec F S2048x1 .f32 := k0_pay1

/-- Every access of the body is through the whole-shape rectangle at offsets zero. -/
private theorem hz : (![0, 0] : Fin 2 → Nat) = fun _ => 0 := funext fun a => by fin_cases a <;> rfl

set_option maxHeartbeats 1000000 in
/-- First tile of a row (reset, no copy-out): the output buffer is left as found. -/
theorem run0_A (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : cond0_0 i) (hc1 : ¬cond0_1 i)
    (x0 : Vec F S2048x3 .f32) (x1 : Vec F S3x512 .f32) (x2 : Vec F S2048x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileAcc x0 x1 accInit)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the accumulator: the reset's store, then the fold's, which covers it; the fold's payload read the reset's value back
  iexists _; isplitr
  swap; · iexact HS
  ipureintro
  sl_unfold_words
  rw [View.read_writes_eq_canon _ _ _ (fun y => ⟨_, List.mem_cons_self, View.mem_set_unit_zero hz inb_S2048x1_S2048x1_0_0 y⟩)]
  rw [View.canon_cons_unit_zero (S := S2048x1) hz, View.readCov_unit_zero (S := S2048x1) _ hz]
  unfold tileAcc accInit
  simp only [View.readAt_eq_ld, harg2.read_unread, harg3.read_unread,
    View.ld_unit_zero (S := S2048x3) hz, View.ld_unit_zero (S := S3x512) hz]

set_option maxHeartbeats 1000000 in
/-- A middle tile (no reset, no copy-out): the accumulator at `xs` is folded once more. -/
theorem run0_B (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : ¬cond0_0 i) (hc1 : ¬cond0_1 i)
    (x0 : Vec F S2048x3 .f32) (x1 : Vec F S3x512 .f32) (x2 : Vec F S2048x1 .f32) (xs : Vec F S2048x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (tileAcc x0 x1 xs)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the accumulator: one covering store, whose payload's loads read the three whole buffers
  iexists _; isplitr
  swap; · iexact HS
  ipureintro
  rw [View.read_writes_eq_canon _ _ _ (fun y => ⟨_, List.mem_singleton_self _, View.mem_set_unit_zero hz inb_S2048x1_S2048x1_0_0 y⟩)]
  rw [View.canon_unit_zero hz]
  unfold tileAcc
  simp only [View.readAt_eq_ld, harg2.read_unread, harg3.read_unread, harg5.read_unread,
    View.ld_unit_zero (S := S2048x3) hz, View.ld_unit_zero (S := S3x512) hz, View.ld_unit_zero (S := S2048x1) hz]

set_option maxHeartbeats 1000000 in
/-- Last tile of a row (no reset, copy-out): the output buffer ends at the accumulator's new contents. -/
theorem run0_C (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : ¬cond0_0 i) (hc1 : cond0_1 i)
    (x0 : Vec F S2048x3 .f32) (x1 : Vec F S3x512 .f32) (xs : Vec F S2048x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (tileAcc x0 x1 xs)
            ∗ owns (c : Thread nD τ) arg5 fullShare (tileAcc x0 x1 xs)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  -- the output block: one covering store of the accumulator as read back after the fold's store
  isplitl [H2]
  · iexists _; isplitr
    swap; · iexact H2
    ipureintro
    sl_unfold_words
    rw [View.read_writes_eq_canon _ _ _ (fun y => ⟨_, List.mem_singleton_self _, View.mem_set_unit_zero hz inb_S2048x1_S2048x1_0_0 y⟩)]
    rw [View.canon_unit_zero hz, View.readCov_unit_zero (S := S2048x1) _ hz]
    unfold tileAcc
    simp only [View.readAt_eq_ld, harg2.read_unread, harg3.read_unread, harg5.read_unread,
      View.ld_unit_zero (S := S2048x3) hz, View.ld_unit_zero (S := S3x512) hz, View.ld_unit_zero (S := S2048x1) hz]
  -- the accumulator: the fold's one covering store
  iexists _; isplitr
  swap; · iexact HS
  ipureintro
  sl_unfold_words
  rw [View.read_writes_eq_canon _ _ _ (fun y => ⟨_, List.mem_singleton_self _, View.mem_set_unit_zero hz inb_S2048x1_S2048x1_0_0 y⟩)]
  rw [View.canon_unit_zero hz]
  unfold tileAcc
  simp only [View.readAt_eq_ld, harg2.read_unread, harg3.read_unread, harg5.read_unread,
    View.ld_unit_zero (S := S2048x3) hz, View.ld_unit_zero (S := S3x512) hz, View.ld_unit_zero (S := S2048x1) hz]

end Cert.Kernel.Hand

end
-- ==== Proof.K.Dat0.lean ====
/-
  The proof data of the distance kernel's region, at the contents `V` the region is entered from: each input
  window's block at a point; the accumulator's contents after each point, by recursion on the point (reset at the
  first tile of a row, folded once more at every other); the invariant (before the first point the class's; after
  point n the accumulator owned at its contents after n); and the body obligation, by cases on the tile.
-/
import proofs.«178117_j33715493273844_1_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of points and the tile of basis vectors at point `t`, at their literal types. -/
abbrev pblk (c : Dev nD) (t : Fin cfg0.N) : Vec F S2048x3 .f32 := iblk0 V c 0 t
abbrev qblk (c : Dev nD) (t : Fin cfg0.N) : Vec F S3x512 .f32 := iblk0 V c 1 t

/-- The accumulator after the body at position `n`: reset and folded at the first tile of a row, folded over what
    the point before left at every other. -/
def acc0 (c : Dev nD) : (n : ℕ) → n < cfg0.N → Vec F S2048x1 .f32
  | 0, hn => tileAcc (pblk V c ⟨0, hn⟩) (qblk V c ⟨0, hn⟩) accInit
  | n + 1, hn =>
    if (n + 1) % 8 = 0 then tileAcc (pblk V c ⟨n + 1, hn⟩) (qblk V c ⟨n + 1, hn⟩) accInit
    else tileAcc (pblk V c ⟨n + 1, hn⟩) (qblk V c ⟨n + 1, hn⟩) (acc0 c n (Nat.lt_of_succ_lt hn))

theorem acc0_reset (c : Dev nD) (t : Fin cfg0.N) (h : t.val % 8 = 0) :
    acc0 V c t.val t.isLt = tileAcc (pblk V c t) (qblk V c t) accInit := by
  obtain ⟨n, hn⟩ := t
  cases n with
  | zero => exact rfl
  | succ n => exact (if_pos h).trans rfl

theorem acc0_step (c : Dev nD) (t : Fin cfg0.N) (h : ¬t.val % 8 = 0) :
    acc0 V c t.val t.isLt = tileAcc (pblk V c t) (qblk V c t) (acc0 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-- The region's invariant before position `n`. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn = iprop(iprop(owns (c : Thread nD τ) scM0 fullShare (acc0 V c n hn) ∗ otherScoped0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 (F := F) c) ∗ (∃ r, prngReg c r)) := by
  cases n with
  | zero => exact absurd rfl hz
  | succ n => rfl

/-- The proof data: the arrays as the region finds them; the input buffers at their blocks, the output buffer at
    the accumulator's contents (consulted only where the window is live); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The tile of points sits in its staging buffer at every point, fetched there or not: between two fetches the
    block index does not move and the body only reads the buffer. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The tile of basis vectors likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The two input buffers hold their tiles; by the position of the tile in its row the
    accumulator is reset or found at what the point before left, and folded once; the output buffer is handed back as
    found except at the last tile of a row, where it takes the accumulator's new contents. The other scoped buffers,
    the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 8 = 0
  · -- first tile of a row: the accumulator is reset, the output window idle
    have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_reset V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_A c Set.univ (grid0.coords t) _ _ _ _ _ _ _ _ ((hcond0_0 t).mpr h0) (fun h => h1 ((hcond0_1 t).mp h)) (pblk V c t) (qblk V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_A c Set.univ (grid0.coords t) _ _ _ _ _ _ _ _ ((hcond0_0 t).mpr h0) (fun h => h1 ((hcond0_1 t).mp h)) (pblk V c t) (qblk V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [acc0_step V c t h0]
    rw [PhiS0_castSucc V c t, PhiS0_pos V c _ _ hz]
    by_cases h1 : t.val % 8 = 7
    · -- last tile of a row: the accumulator is folded and copied to the output block
      rw [show (dat0 V c).leavesExact 2 t = owns (c : Thread nD τ) (ms0_2 t) fullShare ((dat0 V c).after 2 t) from by
        unfold Dat.leavesExact; rw [liveAt0_2 t ((hcond0_1 t).mpr h1)], after0_2, acc0_step V c t h0]
      iintro ⟨⟨⟨HS, Hoth⟩, Hg⟩, Ho, ⟨%d0, H0⟩, ⟨%d1, H1⟩, ⟨%d2, H2⟩⟩
      iapply (run0_C c Set.univ (grid0.coords t) _ _ _ _ _ _ _ _ (fun h => h0 ((hcond0_0 t).mp h)) ((hcond0_1 t).mpr h1) (pblk V c t) (qblk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle tile: the accumulator is folded, the output window idle
      rw [Dat.leavesExact_idle (dat0 V c) 2 t (idleAt0_2 t (fun h => h1 ((hcond0_1 t).mp h))) (noFlush0_2 t (fun h => h1 ((hcond0_1 t).mp h)))]
      iintro ⟨⟨⟨HS, Hoth⟩, Hg⟩, Ho, ⟨%d0, H0⟩, ⟨%d1, H1⟩, ⟨%d2, H2⟩⟩
      iapply (run0_B c Set.univ (grid0.coords t) _ _ _ _ _ _ _ _ (fun h => h0 ((hcond0_0 t).mp h)) (fun h => h1 ((hcond0_1 t).mp h)) (pblk V c t) (qblk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation of the distance kernel, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 256 := N_0; omega)

end

end Cert.Kernel.Hand

end
-- ==== Proof.K.Run1.lean ====
/-
  The dense-layers kernel's body on whole staging memrefs: one grid point loads the activations, the four weight
  matrices and the four bias vectors whole, applies three layers `max (x W + b) 0` and a last layer `x W + b`,
  and stores the result whole. What the output buffer ends with is the body's payloads composed.
-/
import proofs.«178117_j33715493273844_1_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The four dense layers of the kernel, as the body's payloads compose them. -/
def mlpOut (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : Vec F S64x512 .f32 :=
  k1_pay1 (k1_pay2 x0 x1 x2 x3 x4 x5 x6 x7) (k1_pay3 x8)

/-! ## The body's accesses: every operand whole, through the unit rectangle at zero offsets -/

abbrev r1_0 : Rect S64x1024 := Rect.unit (s := S64x1024) ![0, 0] S64x1024.size inb_S64x1024_S64x1024_0_0
abbrev r1_1 : Rect S1024x2048 := Rect.unit (s := S1024x2048) ![0, 0] S1024x2048.size inb_S1024x2048_S1024x2048_0_0
abbrev r1_2 : Rect S2048 := Rect.unit (s := S2048) ![0] S2048.size inb_S2048_S2048_0
abbrev r1_3 : Rect S2048x2048 := Rect.unit (s := S2048x2048) ![0, 0] S2048x2048.size inb_S2048x2048_S2048x2048_0_0
abbrev r1_4 : Rect S2048 := Rect.unit (s := S2048) ![0] S2048.size inb_S2048_S2048_0
abbrev r1_5 : Rect S2048x2048 := Rect.unit (s := S2048x2048) ![0, 0] S2048x2048.size inb_S2048x2048_S2048x2048_0_0
abbrev r1_6 : Rect S2048 := Rect.unit (s := S2048) ![0] S2048.size inb_S2048_S2048_0
abbrev r1_7 : Rect S2048x512 := Rect.unit (s := S2048x512) ![0, 0] S2048x512.size inb_S2048x512_S2048x512_0_0
abbrev r1_8 : Rect S512 := Rect.unit (s := S512) ![0] S512.size inb_S512_S512_0
abbrev r1_9 : Rect S64x512 := Rect.unit (s := S64x512) ![0, 0] S64x512.size inb_S64x512_S64x512_0_0

theorem zero1 : (![0] : Fin 1 → ℕ) = fun _ => 0 := by funext a; fin_cases a; rfl
theorem zero2 : (![0, 0] : Fin 2 → ℕ) = fun _ => 0 := by funext a; fin_cases a <;> rfl

/-- The output buffer after the body's one store, as the list of its pieces: the last payload, over what the nine
    loads read of the inputs' contents. -/
def mlpStored (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : Vec F S64x512 .f32 :=
  View.canon [⟨r1_9, k1_pay1 (k1_pay2 (View.ld x0 r1_0) (View.ld x1 r1_1) (View.ld x2 r1_2) (View.ld x3 r1_3) (View.ld x4 r1_4) (View.ld x5 r1_5) (View.ld x6 r1_6) (View.ld x7 r1_7)) (k1_pay3 (View.ld x8 r1_8))⟩]

/-- The one store covers the output buffer. -/
theorem cover1_9 (p0 : Vec F S64x512 .f32) (y : S64x512.Idx) :
    ∃ pc ∈ ([⟨r1_9, p0⟩] : List (View.Piece (Elt F) S64x512 .f32)), y ∈ pc.1.set :=
  View.cover_of_tiled [⟨r1_9, p0⟩] S64x512.size (by rfl) y

/-- A whole load reads the contents and one whole store leaves its payload: the stored pieces are the layers. -/
theorem mlpStored_eq (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : mlpStored x0 x1 x2 x3 x4 x5 x6 x7 x8 = mlpOut x0 x1 x2 x3 x4 x5 x6 x7 x8 := by
  unfold mlpStored mlpOut
  rw [View.canon_unit_zero zero2, View.ld_unit_zero zero2, View.ld_unit_zero zero2, View.ld_unit_zero zero1,
    View.ld_unit_zero zero2, View.ld_unit_zero zero1, View.ld_unit_zero zero2, View.ld_unit_zero zero1,
    View.ld_unit_zero zero2, View.ld_unit_zero zero1]

set_option maxHeartbeats 2000000 in
/-- The body: the nine inputs' buffers are read and left as they were, the output buffer ends at `mlpOut`. -/
theorem run1 (c : Dev nD) (E : Set ℕ) (i : grid1.Coords) (arg1 : Memref sig .tc .vmem S64x1024 .f32) (harg1 : arg1.IsWhole) (arg2 : Memref sig .tc .vmem S1024x2048 .bf16) (harg2 : arg2.IsWhole) (arg3 : Memref sig .tc .vmem S2048 .f32) (harg3 : arg3.IsWhole) (arg4 : Memref sig .tc .vmem S2048x2048 .bf16) (harg4 : arg4.IsWhole) (arg5 : Memref sig .tc .vmem S2048 .f32) (harg5 : arg5.IsWhole) (arg6 : Memref sig .tc .vmem S2048x2048 .bf16) (harg6 : arg6.IsWhole) (arg7 : Memref sig .tc .vmem S2048 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S64x512 .f32) (harg10 : arg10.IsWhole)
    (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (mlpOut x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  rw [← mlpStored_eq x0 x1 x2 x3 x4 x5 x6 x7 x8]
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

end Cert.Kernel.Hand

end
-- ==== Proof.K.Dat1.lean ====
/-
  The proof data of the dense-layers kernel's region, at the contents `V` the region is entered from: every input
  window's block is its whole array, the output buffer ends at the layers of those; the class invariant, untouched.
-/
import proofs.«178117_j33715493273844_1_alg».proof.Proof.K.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output buffer at point `t`. -/
def out1 (c : Dev nD) (t : Fin cfg1.N) : Vec F S64x512 .f32 :=
  mlpOut (iblk1 V c 0 t) (iblk1 V c 1 t) (iblk1 V c 2 t) (iblk1 V c 3 t) (iblk1 V c 4 t) (iblk1 V c 5 t) (iblk1 V c 6 t) (iblk1 V c 7 t) (iblk1 V c 8 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1 V c t := by dsimp only [dat1]

/-! ## What the body finds in each input window's buffer -/

/-- Input window 0: its current staging buffer holds its block at every point, fetched there or not, for any proof
    data whose array is `V`'s and whose body leaves the block in place (the window is never cut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point, fetched there or not, for any proof
    data whose array is `V`'s and whose body leaves the block in place (the window is never cut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point, fetched there or not, for any proof
    data whose array is `V`'s and whose body leaves the block in place (the window is never cut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every point, fetched there or not, for any proof
    data whose array is `V`'s and whose body leaves the block in place (the window is never cut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every point, fetched there or not, for any proof
    data whose array is `V`'s and whose body leaves the block in place (the window is never cut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its current staging buffer holds its block at every point, fetched there or not, for any proof
    data whose array is `V`'s and whose body leaves the block in place (the window is never cut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: its current staging buffer holds its block at every point, fetched there or not, for any proof
    data whose array is `V`'s and whose body leaves the block in place (the window is never cut and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: its current staging buffer holds its block at every point, fetched there or not, for any proof
    data whose array is `V`'s and whose body leaves the block in place (the window is never cut and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: its current staging buffer holds its block at every point, fetched there or not, for any proof
    data whose array is `V`'s and whose body leaves the block in place (the window is never cut and never idle). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in each input window's buffer: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, the windows one by one -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at the point: the nine input memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation of the dense-layers kernel, at its one point. -/
theorem body_obligation1 (c : Dev nD) : BodyObligation (dat1 (F := F) V c) (defs₀ (F := F)) Variants.none () Set.univ := by
  intro t
  rw [bigSep_W1, bigSep_W1]
  exact sound_body1 V c t

end

end Cert.Kernel.Hand

end
-- ==== Proof.K.Fold.lean ====
/-
  The buffer contents at each boundary of @main, a fold from the launch memory: after the reshape and the
  transpose; after the distance kernel's region (its arrays at what its write-backs leave, every other buffer as
  entered); after the reshape and the four conversions; after the dense-layers region.
-/
import proofs.«178117_j33715493273844_1_alg».proof.Proof.K.Dat0
import proofs.«178117_j33715493273844_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the distance region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the distance region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the dense-layers region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the dense-layers region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.Kernel.Hand

end
-- ==== Proof.K.MainRun.lean ====
/-
  The run of @main: its four items as segments — the two host stretches and the two kernel regions, each region
  entered from every unscoped buffer at the boundary's contents and left at the next boundary's —, and the launch:
  every weakly fair execution terminates and every unscoped buffer ends at the last boundary's contents.
-/
import proofs.«178117_j33715493273844_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between two items -/

/-- No variant bounds a loop of @main, and no core owes another anything: no level is assigned. -/
abbrev 𝒱₀ : Variants := Variants.none
abbrev L : GSem nD τ sig → Finset Unit := fun _ => ∅
abbrev lv : GSem nD τ sig → Unit → ℕ := fun _ _ => 0

/-- Beside the unscoped buffers a core carries, from item to item, its generator register at some state and its
    dues, which are none. -/
abbrev rest (c : Dev nD) : sProp 𝕄 :=
  iprop((∃ r, prngReg c r) ∗ ∃ W, owes (c : Thread nD τ) (0 : CellTallies nD τ sig Unit) W)

/-- Neither host stretch allocates a buffer. -/
theorem ops0_fresh : (hostOps0 : List (HloOp τ sig (Elt F))).Forall fun op => op.fresh = ∅ := by
  simp only [List.Forall]; exact ⟨rfl, rfl⟩
theorem ops1_fresh : (hostOps1 : List (HloOp τ sig (Elt F))).Forall fun op => op.fresh = ∅ := by
  simp only [List.Forall]; exact ⟨rfl, rfl, rfl, rfl, rfl⟩

/-- A host stretch as a segment: it runs over the unscoped buffers from the contents W to those after its
    operations, the rest of the thread state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The last thread state but for the dues: every unscoped buffer at the last boundary's contents, the generator
    register at some state. -/
abbrev lastState (c : Dev nD) : sProp 𝕄 :=
  iprop(StableHlo.held (c : Thread nD τ) (Pipeline.ucRefs τ sig) (W4 m c) ∗ ∃ r, prngReg c r)

/-! ## A region's arrays out of the unscoped buffers, and back -/

set_option backward.isDefEq.respectTransparency.types false in
/-- At the distance region's entry its three arrays, at the contents the proof data name, are split out of the
    unscoped buffers; the other unscoped buffers bypass the region. -/
theorem split0 (c : Dev nD) :
    (StableHlo.held (c : Thread nD τ) (Pipeline.ucRefs τ sig) (W1 m c) : sProp 𝕄)
      ⊢ iprop((pdats m 0 c).arrays ((pdats m 0 c).arrAt · 0)
          ∗ Pipeline.unscopedRest (Ix := Unit) (Name := ℕ) (U := UR sig nD τ) (Lvl := ℕ) spec0 c (V1 m c)) := by
  have h := Pipeline.arrays_of_unscopedBufs (p := 0) (pcfgs (F := F)) adm (pdats m) launch0.win launch0.arr_whole c
    ((pdats m 0 c).share_full fun _ => rfl) (V1 m c) fun _ => rfl
  rw [Pipeline.unscopedBufs_held] at h
  exact h

set_option backward.isDefEq.respectTransparency.types false in
/-- At its exit they are put back, at what the write-backs leave: the unscoped buffers at the next boundary's contents. -/
theorem join0 (c : Dev nD) :
    iprop((pdats m 0 c).arrays ((pdats m 0 c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V1 m c) (V2 m c) ((pdats m 0 c).arrAt · cfg0.N) (hF0 m c) (hrest0 m c)
  rw [Pipeline.unscopedBufs_held] at h
  exact h

set_option backward.isDefEq.respectTransparency.types false in
/-- The same for the dense-layers region's ten arrays, at its entry -/
theorem split1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  have h := Pipeline.arrays_of_unscopedBufs (p := 1) (pcfgs (F := F)) adm (pdats m) launch1.win launch1.arr_whole c
    ((pdats m 1 c).share_full fun _ => rfl) (V3 m c) fun _ => rfl
  rw [Pipeline.unscopedBufs_held] at h
  exact h

set_option backward.isDefEq.respectTransparency.types false in
/-- and at its exit. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V3 m c) (V4 m c) ((pdats m 1 c).arrAt · cfg1.N) (hF1 m c) (hrest1 m c)
  rw [Pipeline.unscopedBufs_held] at h
  exact h

/-! ## The core's dues across a region: none before, none after -/

/-- A core that owes nothing owes what proof data owing nothing say before a point: its recorded pairs lie within
    the bound, which is every pair. -/
theorem dues_in {p : Fin 2} (c : Dev nD) (t : Fin ((Pipeline.pin (pcfgs (F := F)) adm p).N + 1))
    (h0 : (pdats m p c).owed t = 0) (hall : ∀ x, x ∈ (pdats m p c).recorded t) :
    (iprop(∃ W, owes (c : Thread nD τ) (0 : CellTallies nD τ sig Unit) W) : sProp 𝕄) ⊢ (pdats m p c).owesAt () t := by
  unfold Pipeline.Dat.owesAt Pipeline.owesWithin
  rw [h0]
  iintro ⟨%W, H⟩
  iexists W
  isplitr
  · ipureintro; exact fun x _ => Or.inl (hall x)
  iexact H

/-- And back: the bound is forgotten. -/
theorem dues_out {p : Fin 2} (c : Dev nD) (t : Fin ((Pipeline.pin (pcfgs (F := F)) adm p).N + 1))
    (h0 : (pdats m p c).owed t = 0) :
    (pdats m p c).owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-- No pipeline of this program has a prefetched table: there is none to hold. -/
theorem noTables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

/-! ## The two kernel regions as segments -/

set_option backward.isDefEq.respectTransparency.types false in
/-- THE DISTANCE REGION: entered from every unscoped buffer at the contents after the first host stretch, left at
    the contents after its write-backs. Its three arrays are split out of the unscoped buffers at entry and put back
    at exit; the generator register and the scoped buffers enter the class invariant, which is the region's own
    invariant before the first point, and come back out of it after the last, the accumulator's contents forgotten;
    the core owes nothing throughout; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    iintro ⟨⟨Hbufs, Hreg, Hdues⟩, -, -⟩
    ihave Hs := (split0 m c) $$ Hbufs
    icases Hs with ⟨Harr, Hby⟩
    imodintro
    isplitl [Harr]; · iexact Harr
    isplitr; · iapply (noTables 0 c); iempintro
    isplitl [Hdues]; · iapply (dues_in m (p := 0) c 0 rfl fun _ => trivial); iexact Hdues
    isplitl [Hreg]; · iexact Hreg
    iexact Hby
  hin c := by
    refine (?_ : _ ⊢ Pipeline.ΦA spec0 c).trans (hin0 (V1 m) c)
    unfold Pipeline.ΦA
    iintro ⟨Hreg, -, Hsc⟩
    isplitl [Hsc]; · iexact Hsc
    iexact Hreg
  hout c := by
    rw [Pipeline.ownSems0_none]
    refine (hout0 (V1 m) c).trans ?_
    unfold Pipeline.ΦA
    iintro ⟨Hsc, Hreg⟩
    isplitl [Hreg]; · iexact Hreg
    isplitr; · iempintro
    iexact Hsc
  hexit c := by
    iintro ⟨Harr, Hdues, Hreg, Hby⟩
    imodintro
    isplitl [Harr Hby]
    · iapply (join0 m c); isplitl [Harr]; · iexact Harr
      iexact Hby
    isplitl [Hreg]; · iexact Hreg
    iapply (dues_out m (p := 0) c (Fin.last _) rfl); iexact Hdues

set_option backward.isDefEq.respectTransparency.types false in
/-- THE DENSE-LAYERS REGION: entered from every unscoped buffer at the contents after the second host stretch, left
    at the last boundary's. Its invariant is the class's at its one point, so the generator register and the scoped
    buffers go in and come out as they are. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    iintro ⟨⟨Hbufs, Hreg, Hdues⟩, -, -⟩
    ihave Hs := (split1 m c) $$ Hbufs
    icases Hs with ⟨Harr, Hby⟩
    imodintro
    isplitl [Harr]; · iexact Harr
    isplitr; · iapply (noTables 1 c); iempintro
    isplitl [Hdues]; · iapply (dues_in m (p := 1) c 0 rfl fun _ => trivial); iexact Hdues
    isplitl [Hreg]; · iexact Hreg
    iexact Hby
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    iintro ⟨Harr, Hdues, Hreg, Hby⟩
    imodintro
    isplitl [Harr Hby Hreg]
    · isplitl [Harr Hby]
      · iapply (join1 m c); isplitl [Harr]; · iexact Harr
        iexact Hby
      iexact Hreg
    iapply (dues_out m (p := 1) c (Fin.last _) rfl); iexact Hdues

/-! ## @main as its four segments, and the launch -/

/-- The two host stretches from their boundaries' contents, each kernel region after its stretch. -/
abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]

/-- @main is the run of those segments: it is the chain of its four items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs]; · iexact Hbufs
      iexact HSI)
    (hQ := fun s h => h)

end Cert.Kernel.Hand

end
-- ==== Proof.K.Entry.lean ====
/-
  The contents the two regions are entered from, and what ends in the buffers the claims read: no item of @main
  writes an argument; the distance region reads the reshaped points and the transposed basis; the dense-layers
  region reads the distance region's result reshaped, the four weight matrices converted, and the bias vectors.
-/
import proofs.«178117_j33715493273844_1_alg».proof.Proof.K.Fold
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each item leaves alone -/

/-- The first host stretch writes the reshaped points and the transposed basis, nothing else. -/
theorem W1_keeps (c : Dev nD) (r : Ref sig .tc) (h0 : r ≠ main_v0) (h1 : r ≠ main_v1) :
    W1 m c (Proc.devRef .tc r) = W0 m c (Proc.devRef .tc r) := by
  show StableHlo.after hostOps0 (W0 m c) (Proc.devRef .tc r) = _
  simp only [StableHlo.after_cons, StableHlo.after_nil]
  rw [StableHlo.unary_result_ne (h := h1), StableHlo.reshape_result_ne (h := h0)]

/-- The second writes the reshaped distances and the four converted weight matrices, nothing else. -/
theorem W3_keeps (c : Dev nD) (r : Ref sig .tc) (h3 : r ≠ main_v3) (h4 : r ≠ main_v4) (h5 : r ≠ main_v5)
    (h6 : r ≠ main_v6) (h7 : r ≠ main_v7) :
    W3 m c (Proc.devRef .tc r) = W2 m c (Proc.devRef .tc r) := by
  show StableHlo.after hostOps1 (W2 m c) (Proc.devRef .tc r) = _
  simp only [StableHlo.after_cons, StableHlo.after_nil]
  rw [StableHlo.unary_result_ne (h := h7), StableHlo.unary_result_ne (h := h6), StableHlo.unary_result_ne (h := h5),
    StableHlo.unary_result_ne (h := h4), StableHlo.reshape_result_ne (h := h3)]

/-- A buffer that is no array of the distance region (so neither of the first stretch's results) holds at that
    region's exit what it was launched with. -/
theorem W2_launch (c : Dev nD) (r : Ref sig .tc) (ha : ∀ w, Pipeline.arrRef spec0 w ≠ r) :
    W2 m c (Proc.devRef .tc r) = m ((c : Thread nD τ).loc r) :=
  (W2_of_ne m c r ha).trans (W1_keeps m c r (fun e => ha 0 e.symm) (fun e => ha 1 e.symm))

/-- If the second stretch does not write it either, it still does at the dense-layers region's entry. -/
theorem W3_launch (c : Dev nD) (r : Ref sig .tc) (ha : ∀ w, Pipeline.arrRef spec0 w ≠ r)
    (h3 : r ≠ main_v3) (h4 : r ≠ main_v4) (h5 : r ≠ main_v5) (h6 : r ≠ main_v6) (h7 : r ≠ main_v7) :
    W3 m c (Proc.devRef .tc r) = m ((c : Thread nD τ).loc r) :=
  (W3_keeps m c r h3 h4 h5 h6 h7).trans (W2_launch m c r ha)

/-- And if it is no array of the dense-layers region, at the end. -/
theorem W4_launch (c : Dev nD) (r : Ref sig .tc) (ha : ∀ w, Pipeline.arrRef spec0 w ≠ r) (hb : ∀ w, Pipeline.arrRef spec1 w ≠ r)
    (h3 : r ≠ main_v3) (h4 : r ≠ main_v4) (h5 : r ≠ main_v5) (h6 : r ≠ main_v6) (h7 : r ≠ main_v7) :
    W4 m c (Proc.devRef .tc r) = m ((c : Thread nD τ).loc r) :=
  (W4_of_ne m c r hb).trans (W3_launch m c r ha h3 h4 h5 h6 h7)

/-- An input window of the dense-layers region is left by it as entered. -/
theorem W4_input (c : Dev nD) (w : Fin cfg1.W) (hw : (cfg1.win w).isOut = false) :
    W4 m c (Proc.devRef .tc (Pipeline.arrRef spec1 w)) = V3 m c (Pipeline.arrRef spec1 w) :=
  (W4_arr m c w).trans (((dat1 (V3 m) c).arrAt_in w hw _).trans (A_eq1 (V3 m) c w))

/-! ## What the dense-layers region is entered from: the bias vectors, as launched -/

theorem V3_main_arg3 (c : Dev nD) : V3 m c main_arg3 = m ((c : Thread nD τ).loc main_arg3) :=
  W3_launch m c main_arg3 (by decide) (by decide) (by decide) (by decide) (by decide) (by decide)
theorem V3_main_arg5 (c : Dev nD) : V3 m c main_arg5 = m ((c : Thread nD τ).loc main_arg5) :=
  W3_launch m c main_arg5 (by decide) (by decide) (by decide) (by decide) (by decide) (by decide)
theorem V3_main_arg7 (c : Dev nD) : V3 m c main_arg7 = m ((c : Thread nD τ).loc main_arg7) :=
  W3_launch m c main_arg7 (by decide) (by decide) (by decide) (by decide) (by decide) (by decide)
theorem V3_main_arg9 (c : Dev nD) : V3 m c main_arg9 = m ((c : Thread nD τ).loc main_arg9) :=
  W3_launch m c main_arg9 (by decide) (by decide) (by decide) (by decide) (by decide) (by decide)

/-! ## The arguments end as launched -/

theorem W4_main_arg0 (c : Dev nD) : W4 m c (Proc.devRef .tc main_arg0) = m ((c : Thread nD τ).loc main_arg0) :=
  W4_launch m c main_arg0 (by decide) (by decide) (by decide) (by decide) (by decide) (by decide) (by decide)
theorem W4_main_arg1 (c : Dev nD) : W4 m c (Proc.devRef .tc main_arg1) = m ((c : Thread nD τ).loc main_arg1) :=
  W4_launch m c main_arg1 (by decide) (by decide) (by decide) (by decide) (by decide) (by decide) (by decide)
theorem W4_main_arg2 (c : Dev nD) : W4 m c (Proc.devRef .tc main_arg2) = m ((c : Thread nD τ).loc main_arg2) :=
  W4_launch m c main_arg2 (by decide) (by decide) (by decide) (by decide) (by decide) (by decide) (by decide)
theorem W4_main_arg3 (c : Dev nD) : W4 m c (Proc.devRef .tc main_arg3) = m ((c : Thread nD τ).loc main_arg3) :=
  (W4_input m c 2 rfl).trans (V3_main_arg3 m c)
theorem W4_main_arg4 (c : Dev nD) : W4 m c (Proc.devRef .tc main_arg4) = m ((c : Thread nD τ).loc main_arg4) :=
  W4_launch m c main_arg4 (by decide) (by decide) (by decide) (by decide) (by decide) (by decide) (by decide)
theorem W4_main_arg5 (c : Dev nD) : W4 m c (Proc.devRef .tc main_arg5) = m ((c : Thread nD τ).loc main_arg5) :=
  (W4_input m c 4 rfl).trans (V3_main_arg5 m c)
theorem W4_main_arg6 (c : Dev nD) : W4 m c (Proc.devRef .tc main_arg6) = m ((c : Thread nD τ).loc main_arg6) :=
  W4_launch m c main_arg6 (by decide) (by decide) (by decide) (by decide) (by decide) (by decide) (by decide)
theorem W4_main_arg7 (c : Dev nD) : W4 m c (Proc.devRef .tc main_arg7) = m ((c : Thread nD τ).loc main_arg7) :=
  (W4_input m c 6 rfl).trans (V3_main_arg7 m c)
theorem W4_main_arg8 (c : Dev nD) : W4 m c (Proc.devRef .tc main_arg8) = m ((c : Thread nD τ).loc main_arg8) :=
  W4_launch m c main_arg8 (by decide) (by decide) (by decide) (by decide) (by decide) (by decide) (by decide)
theorem W4_main_arg9 (c : Dev nD) : W4 m c (Proc.devRef .tc main_arg9) = m ((c : Thread nD τ).loc main_arg9) :=
  (W4_input m c 8 rfl).trans (V3_main_arg9 m c)

/-! ## What the distance region is entered from -/

theorem V1_main_v0 (c : Dev nD) :
    (V1 m c main_v0 : Vec F S65536x3 .f32) = shapeCast S65536x3 (m ((c : Thread nD τ).loc main_arg0) : Vec F S64x1024x3 .f32) shapeCasts_S64x1024x3_S65536x3 := by
  show StableHlo.after hostOps0 (W0 m c) (Proc.devRef .tc main_v0) = _
  after_results
  rfl

theorem V1_main_v1 (c : Dev nD) :
    (V1 m c main_v1 : Vec F S3x4096 .f32) = transpose S3x4096 [1, 0] (m ((c : Thread nD τ).loc main_arg1) : Vec F S4096x3 .f32) transposes_S4096x3_S3x4096_1_0 := by
  show StableHlo.after hostOps0 (W0 m c) (Proc.devRef .tc main_v1) = _
  after_results

/-! ## What the dense-layers region is entered from: the distances reshaped, the weights converted -/

theorem V3_main_v3 (c : Dev nD) :
    (V3 m c main_v3 : Vec F S64x1024 .f32) = shapeCast S64x1024 ((dat0 (V1 m) c).arrAt 2 cfg0.N : Vec F S65536x1 .f32) shapeCasts_S65536x1_S64x1024 := by
  show StableHlo.after hostOps1 (W2 m c) (Proc.devRef .tc main_v3) = _
  after_results
  rw [show W2 m c (Proc.devRef .tc main_v2) = (dat0 (V1 m) c).arrAt 2 cfg0.N from W2_arr m c 2]
  rfl

theorem V3_main_v4 (c : Dev nD) :
    (V3 m c main_v4 : Vec F S1024x2048 .bf16) = truncf .bf16 (m ((c : Thread nD τ).loc main_arg2) : Vec F S1024x2048 .f32) bitsLt_bf16_f32 := by
  show StableHlo.after hostOps1 (W2 m c) (Proc.devRef .tc main_v4) = _
  after_results
  rw [W2_launch m c main_arg2 (by decide)]

theorem V3_main_v5 (c : Dev nD) :
    (V3 m c main_v5 : Vec F S2048x2048 .bf16) = truncf .bf16 (m ((c : Thread nD τ).loc main_arg4) : Vec F S2048x2048 .f32) bitsLt_bf16_f32 := by
  show StableHlo.after hostOps1 (W2 m c) (Proc.devRef .tc main_v5) = _
  after_results
  rw [W2_launch m c main_arg4 (by decide)]

theorem V3_main_v6 (c : Dev nD) :
    (V3 m c main_v6 : Vec F S2048x2048 .bf16) = truncf .bf16 (m ((c : Thread nD τ).loc main_arg6) : Vec F S2048x2048 .f32) bitsLt_bf16_f32 := by
  show StableHlo.after hostOps1 (W2 m c) (Proc.devRef .tc main_v6) = _
  after_results
  rw [W2_launch m c main_arg6 (by decide)]

theorem V3_main_v7 (c : Dev nD) :
    (V3 m c main_v7 : Vec F S2048x512 .bf16) = truncf .bf16 (m ((c : Thread nD τ).loc main_arg8) : Vec F S2048x512 .f32) bitsLt_bf16_f32 := by
  show StableHlo.after hostOps1 (W2 m c) (Proc.devRef .tc main_v7) = _
  after_results
  rw [W2_launch m c main_arg8 (by decide)]

/-- The result buffer ends at what the dense-layers region's write-back leaves. -/
theorem W4_main_v8 (c : Dev nD) : W4 m c (Proc.devRef .tc main_v8) = (dat1 (V3 m) c).arrAt 9 cfg1.N :=
  W4_arr m c 9

end Cert.Kernel.Hand

end
-- ==== Proof.K.Frame.lean ====
/-
  The frame of the program: every weakly fair execution of @main terminates, nothing faulting, and each argument
  array ends as launched — no host operation writes an argument and each region only reads them.
-/
import proofs.«178117_j33715493273844_1_alg».proof.Proof.K.MainRun
import proofs.«178117_j33715493273844_1_alg».proof.Proof.K.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  -- the run ends with every unscoped buffer at the last boundary's contents; there each argument holds what it was launched with
  (θ_run (defs (F := F)) _ _).mono
    (fun r h c =>
      ⟨(h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c),
       (h c _ (mem_uc main_arg9 (by decide))).trans (W4_main_arg9 m c)⟩)
    (run_all m ρ)

end Cert.Kernel.Hand

end
-- ==== Proof.KI.Base.lean ====
/-
  What the hand-written frame of this program's two kernel regions shares: the two branch conditions of the
  distance kernel decided over its 32 x 8 grid (the accumulator is reset where the second coordinate is 0, and
  copied out where it is 7), where its output window is idle, the staging memrefs by name, and the class invariant
  opened at the scratch accumulator.
-/
import proofs.«178117_j33715493273844_1_alg».proof.Proof.Gen.KernelIdeal.Launch
import proofs.«178117_j33715493273844_1_alg».proof.Proof.Gen.KernelIdeal.Skeleton
import proofs.«178117_j33715493273844_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The distance kernel's two conditions -/

/-- The accumulator is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is copied to the output block: the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile of a row the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile of a row it is live. -/
theorem liveAt0_2 : ∀ t : Fin cfg0.N, cond0_1 (grid0.coords t) → cfg0.idle 2 (grid0.coords t) = false := by decide +kernel

/-! ## The staging memrefs at a point, as the pipeline passes them -/

abbrev ms0_0 (t : Fin cfg0.N) : Memref sig .tc .vmem S2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S2048x1 .f32 := Memref.whole cc0_scratch0

/-! ## The class invariant, opened at the accumulator -/

/-- The scoped buffers of the core that are neither a staging buffer of the distance kernel nor its accumulator
    (the other kernel's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f))

/-- The class invariant of the distance kernel's region is: the accumulator whole at some contents, the other
    scoped buffers, and the generator register at some state. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

end Cert.KernelIdeal.Hand

end
-- ==== Proof.KI.Run0.lean ====
/-
  The distance kernel's body on whole staging memrefs, in each of its three control cases. One grid point loads a
  tile of 2048 points and a tile of 512 basis vectors, computes every pairwise distance of the two tiles and each
  point's minimum over the tile, and folds that into the accumulator: at the first tile of a row the accumulator is
  first set to +infinity; at the last the accumulator is also copied to the output block. The accumulator's
  contents after the point are the second payload of the body at the two loaded tiles and at what the accumulator
  held (the first payload, the constant +infinity, after a reset).
-/
import proofs.«178117_j33715493273844_1_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator after one point: each row's minimum of the tile's distances, folded into `a`. -/
def tileAcc (x0 : Vec F S2048x3 .f32) (x1 : Vec F S3x512 .f32) (a : Vec F S2048x1 .f32) : Vec F S2048x1 .f32 :=
  k0_pay2 x0 x1 a

/-- The accumulator after a reset: +infinity in every row. -/
def accInit : Vec F S2048x1 .f32 := k0_pay1

/-- Every access of the body is through the whole-shape rectangle at offsets zero. -/
private theorem hz : (![0, 0] : Fin 2 → Nat) = fun _ => 0 := funext fun a => by fin_cases a <;> rfl

set_option maxHeartbeats 1000000 in
/-- First tile of a row (reset, no copy-out): the output buffer is left as found. -/
theorem run0_A (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : cond0_0 i) (hc1 : ¬cond0_1 i)
    (x0 : Vec F S2048x3 .f32) (x1 : Vec F S3x512 .f32) (x2 : Vec F S2048x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileAcc x0 x1 accInit)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the accumulator: the reset's store, then the fold's, which covers it; the fold's payload read the reset's value back
  iexists _; isplitr
  swap; · iexact HS
  ipureintro
  sl_unfold_words
  rw [View.read_writes_eq_canon _ _ _ (fun y => ⟨_, List.mem_cons_self, View.mem_set_unit_zero hz inb_S2048x1_S2048x1_0_0 y⟩)]
  rw [View.canon_cons_unit_zero (S := S2048x1) hz, View.readCov_unit_zero (S := S2048x1) _ hz]
  unfold tileAcc accInit
  simp only [View.readAt_eq_ld, harg2.read_unread, harg3.read_unread,
    View.ld_unit_zero (S := S2048x3) hz, View.ld_unit_zero (S := S3x512) hz]

set_option maxHeartbeats 1000000 in
/-- A middle tile (no reset, no copy-out): the accumulator at `xs` is folded once more. -/
theorem run0_B (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : ¬cond0_0 i) (hc1 : ¬cond0_1 i)
    (x0 : Vec F S2048x3 .f32) (x1 : Vec F S3x512 .f32) (x2 : Vec F S2048x1 .f32) (xs : Vec F S2048x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (tileAcc x0 x1 xs)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the accumulator: one covering store, whose payload's loads read the three whole buffers
  iexists _; isplitr
  swap; · iexact HS
  ipureintro
  rw [View.read_writes_eq_canon _ _ _ (fun y => ⟨_, List.mem_singleton_self _, View.mem_set_unit_zero hz inb_S2048x1_S2048x1_0_0 y⟩)]
  rw [View.canon_unit_zero hz]
  unfold tileAcc
  simp only [View.readAt_eq_ld, harg2.read_unread, harg3.read_unread, harg5.read_unread,
    View.ld_unit_zero (S := S2048x3) hz, View.ld_unit_zero (S := S3x512) hz, View.ld_unit_zero (S := S2048x1) hz]

set_option maxHeartbeats 1000000 in
/-- Last tile of a row (no reset, copy-out): the output buffer ends at the accumulator's new contents. -/
theorem run0_C (c : Dev nD) (E : Set ℕ) (i : grid0.Coords) (arg2 : Memref sig .tc .vmem S2048x3 .f32) (harg2 : arg2.IsWhole) (arg3 : Memref sig .tc .vmem S3x512 .f32) (harg3 : arg3.IsWhole) (arg4 : Memref sig .tc .vmem S2048x1 .f32) (harg4 : arg4.IsWhole) (arg5 : Memref sig .tc .vmem S2048x1 .f32) (harg5 : arg5.IsWhole)
    (hc0 : ¬cond0_0 i) (hc1 : cond0_1 i)
    (x0 : Vec F S2048x3 .f32) (x1 : Vec F S3x512 .f32) (xs : Vec F S2048x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (tileAcc x0 x1 xs)
            ∗ owns (c : Thread nD τ) arg5 fullShare (tileAcc x0 x1 xs)) -∗ K ⟨⟩))
      ⊢ wp frame (wpE (defs₀ (F := F)) Variants.none c none) E (cc0__dist_min_kernel i arg2 harg2 arg3 harg3 arg4 harg4 arg5 harg5) K := by
  simp only [cc0__dist_min_kernel_eq_skeleton]; unfold cc0__dist_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  -- the output block: one covering store of the accumulator as read back after the fold's store
  isplitl [H2]
  · iexists _; isplitr
    swap; · iexact H2
    ipureintro
    sl_unfold_words
    rw [View.read_writes_eq_canon _ _ _ (fun y => ⟨_, List.mem_singleton_self _, View.mem_set_unit_zero hz inb_S2048x1_S2048x1_0_0 y⟩)]
    rw [View.canon_unit_zero hz, View.readCov_unit_zero (S := S2048x1) _ hz]
    unfold tileAcc
    simp only [View.readAt_eq_ld, harg2.read_unread, harg3.read_unread, harg5.read_unread,
      View.ld_unit_zero (S := S2048x3) hz, View.ld_unit_zero (S := S3x512) hz, View.ld_unit_zero (S := S2048x1) hz]
  -- the accumulator: the fold's one covering store
  iexists _; isplitr
  swap; · iexact HS
  ipureintro
  sl_unfold_words
  rw [View.read_writes_eq_canon _ _ _ (fun y => ⟨_, List.mem_singleton_self _, View.mem_set_unit_zero hz inb_S2048x1_S2048x1_0_0 y⟩)]
  rw [View.canon_unit_zero hz]
  unfold tileAcc
  simp only [View.readAt_eq_ld, harg2.read_unread, harg3.read_unread, harg5.read_unread,
    View.ld_unit_zero (S := S2048x3) hz, View.ld_unit_zero (S := S3x512) hz, View.ld_unit_zero (S := S2048x1) hz]

end Cert.KernelIdeal.Hand

end
-- ==== Proof.KI.Dat0.lean ====
/-
  The proof data of the distance kernel's region, at the contents `V` the region is entered from: each input
  window's block at a point; the accumulator's contents after each point, by recursion on the point (reset at the
  first tile of a row, folded once more at every other); the invariant (before the first point the class's; after
  point n the accumulator owned at its contents after n); and the body obligation, by cases on the tile.
-/
import proofs.«178117_j33715493273844_1_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of points and the tile of basis vectors at point `t`, at their literal types. -/
abbrev pblk (c : Dev nD) (t : Fin cfg0.N) : Vec F S2048x3 .f32 := iblk0 V c 0 t
abbrev qblk (c : Dev nD) (t : Fin cfg0.N) : Vec F S3x512 .f32 := iblk0 V c 1 t

/-- The accumulator after the body at position `n`: reset and folded at the first tile of a row, folded over what
    the point before left at every other. -/
def acc0 (c : Dev nD) : (n : ℕ) → n < cfg0.N → Vec F S2048x1 .f32
  | 0, hn => tileAcc (pblk V c ⟨0, hn⟩) (qblk V c ⟨0, hn⟩) accInit
  | n + 1, hn =>
    if (n + 1) % 8 = 0 then tileAcc (pblk V c ⟨n + 1, hn⟩) (qblk V c ⟨n + 1, hn⟩) accInit
    else tileAcc (pblk V c ⟨n + 1, hn⟩) (qblk V c ⟨n + 1, hn⟩) (acc0 c n (Nat.lt_of_succ_lt hn))

theorem acc0_reset (c : Dev nD) (t : Fin cfg0.N) (h : t.val % 8 = 0) :
    acc0 V c t.val t.isLt = tileAcc (pblk V c t) (qblk V c t) accInit := by
  obtain ⟨n, hn⟩ := t
  cases n with
  | zero => exact rfl
  | succ n => exact (if_pos h).trans rfl

theorem acc0_step (c : Dev nD) (t : Fin cfg0.N) (h : ¬t.val % 8 = 0) :
    acc0 V c t.val t.isLt = tileAcc (pblk V c t) (qblk V c t) (acc0 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-- The region's invariant before position `n`. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn = iprop(iprop(owns (c : Thread nD τ) scM0 fullShare (acc0 V c n hn) ∗ otherScoped0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 (F := F) c) ∗ (∃ r, prngReg c r)) := by
  cases n with
  | zero => exact absurd rfl hz
  | succ n => rfl

/-- The proof data: the arrays as the region finds them; the input buffers at their blocks, the output buffer at
    the accumulator's contents (consulted only where the window is live); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The tile of points sits in its staging buffer at every point, fetched there or not: between two fetches the
    block index does not move and the body only reads the buffer. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The tile of basis vectors likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The two input buffers hold their tiles; by the position of the tile in its row the
    accumulator is reset or found at what the point before left, and folded once; the output buffer is handed back as
    found except at the last tile of a row, where it takes the accumulator's new contents. The other scoped buffers,
    the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 8 = 0
  · -- first tile of a row: the accumulator is reset, the output window idle
    have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_reset V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_A c Set.univ (grid0.coords t) _ _ _ _ _ _ _ _ ((hcond0_0 t).mpr h0) (fun h => h1 ((hcond0_1 t).mp h)) (pblk V c t) (qblk V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_A c Set.univ (grid0.coords t) _ _ _ _ _ _ _ _ ((hcond0_0 t).mpr h0) (fun h => h1 ((hcond0_1 t).mp h)) (pblk V c t) (qblk V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [acc0_step V c t h0]
    rw [PhiS0_castSucc V c t, PhiS0_pos V c _ _ hz]
    by_cases h1 : t.val % 8 = 7
    · -- last tile of a row: the accumulator is folded and copied to the output block
      rw [show (dat0 V c).leavesExact 2 t = owns (c : Thread nD τ) (ms0_2 t) fullShare ((dat0 V c).after 2 t) from by
        unfold Dat.leavesExact; rw [liveAt0_2 t ((hcond0_1 t).mpr h1)], after0_2, acc0_step V c t h0]
      iintro ⟨⟨⟨HS, Hoth⟩, Hg⟩, Ho, ⟨%d0, H0⟩, ⟨%d1, H1⟩, ⟨%d2, H2⟩⟩
      iapply (run0_C c Set.univ (grid0.coords t) _ _ _ _ _ _ _ _ (fun h => h0 ((hcond0_0 t).mp h)) ((hcond0_1 t).mpr h1) (pblk V c t) (qblk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle tile: the accumulator is folded, the output window idle
      rw [Dat.leavesExact_idle (dat0 V c) 2 t (idleAt0_2 t (fun h => h1 ((hcond0_1 t).mp h))) (noFlush0_2 t (fun h => h1 ((hcond0_1 t).mp h)))]
      iintro ⟨⟨⟨HS, Hoth⟩, Hg⟩, Ho, ⟨%d0, H0⟩, ⟨%d1, H1⟩, ⟨%d2, H2⟩⟩
      iapply (run0_B c Set.univ (grid0.coords t) _ _ _ _ _ _ _ _ (fun h => h0 ((hcond0_0 t).mp h)) (fun h => h1 ((hcond0_1 t).mp h)) (pblk V c t) (qblk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation of the distance kernel, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 256 := N_0; omega)

end

end Cert.KernelIdeal.Hand

end
-- ==== Proof.KI.Run1.lean ====
/-
  The dense-layers kernel's body on whole staging memrefs: one grid point loads the activations, the four weight
  matrices and the four bias vectors whole, applies three layers `max (x W + b) 0` and a last layer `x W + b`,
  and stores the result whole. What the output buffer ends with is the body's payloads composed.
-/
import proofs.«178117_j33715493273844_1_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The four dense layers of the kernel, as the body's payloads compose them. -/
def mlpOut (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : Vec F S64x512 .f32 :=
  k1_pay1 (k1_pay2 x0 x1 x2 x3 x4 x5 x6 x7) (k1_pay3 x8)

/-! ## The body's accesses: every operand whole, through the unit rectangle at zero offsets -/

abbrev r1_0 : Rect S64x1024 := Rect.unit (s := S64x1024) ![0, 0] S64x1024.size inb_S64x1024_S64x1024_0_0
abbrev r1_1 : Rect S1024x2048 := Rect.unit (s := S1024x2048) ![0, 0] S1024x2048.size inb_S1024x2048_S1024x2048_0_0
abbrev r1_2 : Rect S2048 := Rect.unit (s := S2048) ![0] S2048.size inb_S2048_S2048_0
abbrev r1_3 : Rect S2048x2048 := Rect.unit (s := S2048x2048) ![0, 0] S2048x2048.size inb_S2048x2048_S2048x2048_0_0
abbrev r1_4 : Rect S2048 := Rect.unit (s := S2048) ![0] S2048.size inb_S2048_S2048_0
abbrev r1_5 : Rect S2048x2048 := Rect.unit (s := S2048x2048) ![0, 0] S2048x2048.size inb_S2048x2048_S2048x2048_0_0
abbrev r1_6 : Rect S2048 := Rect.unit (s := S2048) ![0] S2048.size inb_S2048_S2048_0
abbrev r1_7 : Rect S2048x512 := Rect.unit (s := S2048x512) ![0, 0] S2048x512.size inb_S2048x512_S2048x512_0_0
abbrev r1_8 : Rect S512 := Rect.unit (s := S512) ![0] S512.size inb_S512_S512_0
abbrev r1_9 : Rect S64x512 := Rect.unit (s := S64x512) ![0, 0] S64x512.size inb_S64x512_S64x512_0_0

theorem zero1 : (![0] : Fin 1 → ℕ) = fun _ => 0 := by funext a; fin_cases a; rfl
theorem zero2 : (![0, 0] : Fin 2 → ℕ) = fun _ => 0 := by funext a; fin_cases a <;> rfl

/-- The output buffer after the body's one store, as the list of its pieces: the last payload, over what the nine
    loads read of the inputs' contents. -/
def mlpStored (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : Vec F S64x512 .f32 :=
  View.canon [⟨r1_9, k1_pay1 (k1_pay2 (View.ld x0 r1_0) (View.ld x1 r1_1) (View.ld x2 r1_2) (View.ld x3 r1_3) (View.ld x4 r1_4) (View.ld x5 r1_5) (View.ld x6 r1_6) (View.ld x7 r1_7)) (k1_pay3 (View.ld x8 r1_8))⟩]

/-- The one store covers the output buffer. -/
theorem cover1_9 (p0 : Vec F S64x512 .f32) (y : S64x512.Idx) :
    ∃ pc ∈ ([⟨r1_9, p0⟩] : List (View.Piece (Elt F) S64x512 .f32)), y ∈ pc.1.set :=
  View.cover_of_tiled [⟨r1_9, p0⟩] S64x512.size (by rfl) y

/-- A whole load reads the contents and one whole store leaves its payload: the stored pieces are the layers. -/
theorem mlpStored_eq (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) : mlpStored x0 x1 x2 x3 x4 x5 x6 x7 x8 = mlpOut x0 x1 x2 x3 x4 x5 x6 x7 x8 := by
  unfold mlpStored mlpOut
  rw [View.canon_unit_zero zero2, View.ld_unit_zero zero2, View.ld_unit_zero zero2, View.ld_unit_zero zero1,
    View.ld_unit_zero zero2, View.ld_unit_zero zero1, View.ld_unit_zero zero2, View.ld_unit_zero zero1,
    View.ld_unit_zero zero2, View.ld_unit_zero zero1]

set_option maxHeartbeats 2000000 in
/-- The body: the nine inputs' buffers are read and left as they were, the output buffer ends at `mlpOut`. -/
theorem run1 (c : Dev nD) (E : Set ℕ) (i : grid1.Coords) (arg1 : Memref sig .tc .vmem S64x1024 .f32) (harg1 : arg1.IsWhole) (arg2 : Memref sig .tc .vmem S1024x2048 .bf16) (harg2 : arg2.IsWhole) (arg3 : Memref sig .tc .vmem S2048 .f32) (harg3 : arg3.IsWhole) (arg4 : Memref sig .tc .vmem S2048x2048 .bf16) (harg4 : arg4.IsWhole) (arg5 : Memref sig .tc .vmem S2048 .f32) (harg5 : arg5.IsWhole) (arg6 : Memref sig .tc .vmem S2048x2048 .bf16) (harg6 : arg6.IsWhole) (arg7 : Memref sig .tc .vmem S2048 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S64x512 .f32) (harg10 : arg10.IsWhole)
    (x0 : Vec F S64x1024 .f32) (x1 : Vec F S1024x2048 .bf16) (x2 : Vec F S2048 .f32) (x3 : Vec F S2048x2048 .bf16) (x4 : Vec F S2048 .f32) (x5 : Vec F S2048x2048 .bf16) (x6 : Vec F S2048 .f32) (x7 : Vec F S2048x512 .bf16) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (mlpOut x0 x1 x2 x3 x4 x5 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  rw [← mlpStored_eq x0 x1 x2 x3 x4 x5 x6 x7 x8]
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

end Cert.KernelIdeal.Hand

end
-- ==== Proof.KI.Dat1.lean ====
/-
  The proof data of the dense-layers kernel's region, at the contents `V` the region is entered from: every input
  window's block is its whole array, the output buffer ends at the layers of those; the class invariant, untouched.
-/
import proofs.«178117_j33715493273844_1_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output buffer at point `t`. -/
def out1 (c : Dev nD) (t : Fin cfg1.N) : Vec F S64x512 .f32 :=
  mlpOut (iblk1 V c 0 t) (iblk1 V c 1 t) (iblk1 V c 2 t) (iblk1 V c 3 t) (iblk1 V c 4 t) (iblk1 V c 5 t) (iblk1 V c 6 t) (iblk1 V c 7 t) (iblk1 V c 8 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1 V c t := by dsimp only [dat1]

/-! ## What the body finds in each input window's buffer -/

/-- Input window 0: its current staging buffer holds its block at every point, fetched there or not, for any proof
    data whose array is `V`'s and whose body leaves the block in place (the window is never cut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point, fetched there or not, for any proof
    data whose array is `V`'s and whose body leaves the block in place (the window is never cut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point, fetched there or not, for any proof
    data whose array is `V`'s and whose body leaves the block in place (the window is never cut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every point, fetched there or not, for any proof
    data whose array is `V`'s and whose body leaves the block in place (the window is never cut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every point, fetched there or not, for any proof
    data whose array is `V`'s and whose body leaves the block in place (the window is never cut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its current staging buffer holds its block at every point, fetched there or not, for any proof
    data whose array is `V`'s and whose body leaves the block in place (the window is never cut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: its current staging buffer holds its block at every point, fetched there or not, for any proof
    data whose array is `V`'s and whose body leaves the block in place (the window is never cut and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: its current staging buffer holds its block at every point, fetched there or not, for any proof
    data whose array is `V`'s and whose body leaves the block in place (the window is never cut and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: its current staging buffer holds its block at every point, fetched there or not, for any proof
    data whose array is `V`'s and whose body leaves the block in place (the window is never cut and never idle). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in each input window's buffer: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]

/-- Each input's current staging buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, the windows one by one -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at the point: the nine input memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation of the dense-layers kernel, at its one point. -/
theorem body_obligation1 (c : Dev nD) : BodyObligation (dat1 (F := F) V c) (defs₀ (F := F)) Variants.none () Set.univ := by
  intro t
  rw [bigSep_W1, bigSep_W1]
  exact sound_body1 V c t

end

end Cert.KernelIdeal.Hand

end
-- ==== Proof.KI.Fold.lean ====
/-
  The buffer contents at each boundary of @main, a fold from the launch memory: after the reshape and the
  transpose; after the distance kernel's region (its arrays at what its write-backs leave, every other buffer as
  entered); after the reshape and the four conversions; after the dense-layers region.
-/
import proofs.«178117_j33715493273844_1_alg».proof.Proof.KI.Dat0
import proofs.«178117_j33715493273844_1_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the distance region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the distance region's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the dense-layers region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the dense-layers region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

end Cert.KernelIdeal.Hand

end
-- ==== Proof.KI.MainRun.lean ====
/-
  The run of @main: its four items as segments — the two host stretches and the two kernel regions, each region
  entered from every unscoped buffer at the boundary's contents and left at the next boundary's —, and the launch:
  every weakly fair execution terminates and every unscoped buffer ends at the last boundary's contents.
-/
import proofs.«178117_j33715493273844_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between two items -/

/-- No variant bounds a loop of @main, and no core owes another anything: no level is assigned. -/
abbrev 𝒱₀ : Variants := Variants.none
abbrev L : GSem nD τ sig → Finset Unit := fun _ => ∅
abbrev lv : GSem nD τ sig → Unit → ℕ := fun _ _ => 0

/-- Beside the unscoped buffers a core carries, from item to item, its generator register at some state and its
    dues, which are none. -/
abbrev rest (c : Dev nD) : sProp 𝕄 :=
  iprop((∃ r, prngReg c r) ∗ ∃ W, owes (c : Thread nD τ) (0 : CellTallies nD τ sig Unit) W)

/-- Neither host stretch allocates a buffer. -/
theorem ops0_fresh : (hostOps0 : List (HloOp τ sig (Elt F))).Forall fun op => op.fresh = ∅ := by
  simp only [List.Forall]; exact ⟨rfl, rfl⟩
theorem ops1_fresh : (hostOps1 : List (HloOp τ sig (Elt F))).Forall fun op => op.fresh = ∅ := by
  simp only [List.Forall]; exact ⟨rfl, rfl, rfl, rfl, rfl⟩

/-- A host stretch as a segment: it runs over the unscoped buffers from the contents W to those after its
    operations, the rest of the thread state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The last thread state but for the dues: every unscoped buffer at the last boundary's contents, the generator
    register at some state. -/
abbrev lastState (c : Dev nD) : sProp 𝕄 :=
  iprop(StableHlo.held (c : Thread nD τ) (Pipeline.ucRefs τ sig) (W4 m c) ∗ ∃ r, prngReg c r)

/-! ## A region's arrays out of the unscoped buffers, and back -/

set_option backward.isDefEq.respectTransparency.types false in
/-- At the distance region's entry its three arrays, at the contents the proof data name, are split out of the
    unscoped buffers; the other unscoped buffers bypass the region. -/
theorem split0 (c : Dev nD) :
    (StableHlo.held (c : Thread nD τ) (Pipeline.ucRefs τ sig) (W1 m c) : sProp 𝕄)
      ⊢ iprop((pdats m 0 c).arrays ((pdats m 0 c).arrAt · 0)
          ∗ Pipeline.unscopedRest (Ix := Unit) (Name := ℕ) (U := UR sig nD τ) (Lvl := ℕ) spec0 c (V1 m c)) := by
  have h := Pipeline.arrays_of_unscopedBufs (p := 0) (pcfgs (F := F)) adm (pdats m) launch0.win launch0.arr_whole c
    ((pdats m 0 c).share_full fun _ => rfl) (V1 m c) fun _ => rfl
  rw [Pipeline.unscopedBufs_held] at h
  exact h

set_option backward.isDefEq.respectTransparency.types false in
/-- At its exit they are put back, at what the write-backs leave: the unscoped buffers at the next boundary's contents. -/
theorem join0 (c : Dev nD) :
    iprop((pdats m 0 c).arrays ((pdats m 0 c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V1 m c) (V2 m c) ((pdats m 0 c).arrAt · cfg0.N) (hF0 m c) (hrest0 m c)
  rw [Pipeline.unscopedBufs_held] at h
  exact h

set_option backward.isDefEq.respectTransparency.types false in
/-- The same for the dense-layers region's ten arrays, at its entry -/
theorem split1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  have h := Pipeline.arrays_of_unscopedBufs (p := 1) (pcfgs (F := F)) adm (pdats m) launch1.win launch1.arr_whole c
    ((pdats m 1 c).share_full fun _ => rfl) (V3 m c) fun _ => rfl
  rw [Pipeline.unscopedBufs_held] at h
  exact h

set_option backward.isDefEq.respectTransparency.types false in
/-- and at its exit. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V3 m c) (V4 m c) ((pdats m 1 c).arrAt · cfg1.N) (hF1 m c) (hrest1 m c)
  rw [Pipeline.unscopedBufs_held] at h
  exact h

/-! ## The core's dues across a region: none before, none after -/

/-- A core that owes nothing owes what proof data owing nothing say before a point: its recorded pairs lie within
    the bound, which is every pair. -/
theorem dues_in {p : Fin 2} (c : Dev nD) (t : Fin ((Pipeline.pin (pcfgs (F := F)) adm p).N + 1))
    (h0 : (pdats m p c).owed t = 0) (hall : ∀ x, x ∈ (pdats m p c).recorded t) :
    (iprop(∃ W, owes (c : Thread nD τ) (0 : CellTallies nD τ sig Unit) W) : sProp 𝕄) ⊢ (pdats m p c).owesAt () t := by
  unfold Pipeline.Dat.owesAt Pipeline.owesWithin
  rw [h0]
  iintro ⟨%W, H⟩
  iexists W
  isplitr
  · ipureintro; exact fun x _ => Or.inl (hall x)
  iexact H

/-- And back: the bound is forgotten. -/
theorem dues_out {p : Fin 2} (c : Dev nD) (t : Fin ((Pipeline.pin (pcfgs (F := F)) adm p).N + 1))
    (h0 : (pdats m p c).owed t = 0) :
    (pdats m p c).owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-- No pipeline of this program has a prefetched table: there is none to hold. -/
theorem noTables (p : Fin 2) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

/-! ## The two kernel regions as segments -/

set_option backward.isDefEq.respectTransparency.types false in
/-- THE DISTANCE REGION: entered from every unscoped buffer at the contents after the first host stretch, left at
    the contents after its write-backs. Its three arrays are split out of the unscoped buffers at entry and put back
    at exit; the generator register and the scoped buffers enter the class invariant, which is the region's own
    invariant before the first point, and come back out of it after the last, the accumulator's contents forgotten;
    the core owes nothing throughout; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    iintro ⟨⟨Hbufs, Hreg, Hdues⟩, -, -⟩
    ihave Hs := (split0 m c) $$ Hbufs
    icases Hs with ⟨Harr, Hby⟩
    imodintro
    isplitl [Harr]; · iexact Harr
    isplitr; · iapply (noTables 0 c); iempintro
    isplitl [Hdues]; · iapply (dues_in m (p := 0) c 0 rfl fun _ => trivial); iexact Hdues
    isplitl [Hreg]; · iexact Hreg
    iexact Hby
  hin c := by
    refine (?_ : _ ⊢ Pipeline.ΦA spec0 c).trans (hin0 (V1 m) c)
    unfold Pipeline.ΦA
    iintro ⟨Hreg, -, Hsc⟩
    isplitl [Hsc]; · iexact Hsc
    iexact Hreg
  hout c := by
    rw [Pipeline.ownSems0_none]
    refine (hout0 (V1 m) c).trans ?_
    unfold Pipeline.ΦA
    iintro ⟨Hsc, Hreg⟩
    isplitl [Hreg]; · iexact Hreg
    isplitr; · iempintro
    iexact Hsc
  hexit c := by
    iintro ⟨Harr, Hdues, Hreg, Hby⟩
    imodintro
    isplitl [Harr Hby]
    · iapply (join0 m c); isplitl [Harr]; · iexact Harr
      iexact Hby
    isplitl [Hreg]; · iexact Hreg
    iapply (dues_out m (p := 0) c (Fin.last _) rfl); iexact Hdues

set_option backward.isDefEq.respectTransparency.types false in
/-- THE DENSE-LAYERS REGION: entered from every unscoped buffer at the contents after the second host stretch, left
    at the last boundary's. Its invariant is the class's at its one point, so the generator register and the scoped
    buffers go in and come out as they are. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    iintro ⟨⟨Hbufs, Hreg, Hdues⟩, -, -⟩
    ihave Hs := (split1 m c) $$ Hbufs
    icases Hs with ⟨Harr, Hby⟩
    imodintro
    isplitl [Harr]; · iexact Harr
    isplitr; · iapply (noTables 1 c); iempintro
    isplitl [Hdues]; · iapply (dues_in m (p := 1) c 0 rfl fun _ => trivial); iexact Hdues
    isplitl [Hreg]; · iexact Hreg
    iexact Hby
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    iintro ⟨Harr, Hdues, Hreg, Hby⟩
    imodintro
    isplitl [Harr Hby Hreg]
    · isplitl [Harr Hby]
      · iapply (join1 m c); isplitl [Harr]; · iexact Harr
        iexact Hby
      iexact Hreg
    iapply (dues_out m (p := 1) c (Fin.last _) rfl); iexact Hdues

/-! ## @main as its four segments, and the launch -/

/-- The two host stretches from their boundaries' contents, each kernel region after its stretch. -/
abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]

/-- @main is the run of those segments: it is the chain of its four items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdues, -, Hreg, -⟩, -⟩
      imodintro
      isplitl [Hbufs]; · iexact Hbufs
      isplitl [Hreg]; · iexists _; iexact Hreg
      iexists ∅; iexact Hdues)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs]; · iexact Hbufs
      iexact HSI)
    (hQ := fun s h => h)

end Cert.KernelIdeal.Hand

end
-- ==== Proof.KI.Entry.lean ====
/-
  The contents the two regions are entered from, and what ends in the buffers the claims read: no item of @main
  writes an argument; the distance region reads the reshaped points and the transposed basis; the dense-layers
  region reads the distance region's result reshaped, the four weight matrices converted, and the bias vectors.
-/
import proofs.«178117_j33715493273844_1_alg».proof.Proof.KI.Fold
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each item leaves alone -/

/-- The first host stretch writes the reshaped points and the transposed basis, nothing else. -/
theorem W1_keeps (c : Dev nD) (r : Ref sig .tc) (h0 : r ≠ main_v0) (h1 : r ≠ main_v1) :
    W1 m c (Proc.devRef .tc r) = W0 m c (Proc.devRef .tc r) := by
  show StableHlo.after hostOps0 (W0 m c) (Proc.devRef .tc r) = _
  simp only [StableHlo.after_cons, StableHlo.after_nil]
  rw [StableHlo.unary_result_ne (h := h1), StableHlo.reshape_result_ne (h := h0)]

/-- The second writes the reshaped distances and the four converted weight matrices, nothing else. -/
theorem W3_keeps (c : Dev nD) (r : Ref sig .tc) (h3 : r ≠ main_v3) (h4 : r ≠ main_v4) (h5 : r ≠ main_v5)
    (h6 : r ≠ main_v6) (h7 : r ≠ main_v7) :
    W3 m c (Proc.devRef .tc r) = W2 m c (Proc.devRef .tc r) := by
  show StableHlo.after hostOps1 (W2 m c) (Proc.devRef .tc r) = _
  simp only [StableHlo.after_cons, StableHlo.after_nil]
  rw [StableHlo.unary_result_ne (h := h7), StableHlo.unary_result_ne (h := h6), StableHlo.unary_result_ne (h := h5),
    StableHlo.unary_result_ne (h := h4), StableHlo.reshape_result_ne (h := h3)]

/-- A buffer that is no array of the distance region (so neither of the first stretch's results) holds at that
    region's exit what it was launched with. -/
theorem W2_launch (c : Dev nD) (r : Ref sig .tc) (ha : ∀ w, Pipeline.arrRef spec0 w ≠ r) :
    W2 m c (Proc.devRef .tc r) = m ((c : Thread nD τ).loc r) :=
  (W2_of_ne m c r ha).trans (W1_keeps m c r (fun e => ha 0 e.symm) (fun e => ha 1 e.symm))

/-- If the second stretch does not write it either, it still does at the dense-layers region's entry. -/
theorem W3_launch (c : Dev nD) (r : Ref sig .tc) (ha : ∀ w, Pipeline.arrRef spec0 w ≠ r)
    (h3 : r ≠ main_v3) (h4 : r ≠ main_v4) (h5 : r ≠ main_v5) (h6 : r ≠ main_v6) (h7 : r ≠ main_v7) :
    W3 m c (Proc.devRef .tc r) = m ((c : Thread nD τ).loc r) :=
  (W3_keeps m c r h3 h4 h5 h6 h7).trans (W2_launch m c r ha)

/-- And if it is no array of the dense-layers region, at the end. -/
theorem W4_launch (c : Dev nD) (r : Ref sig .tc) (ha : ∀ w, Pipeline.arrRef spec0 w ≠ r) (hb : ∀ w, Pipeline.arrRef spec1 w ≠ r)
    (h3 : r ≠ main_v3) (h4 : r ≠ main_v4) (h5 : r ≠ main_v5) (h6 : r ≠ main_v6) (h7 : r ≠ main_v7) :
    W4 m c (Proc.devRef .tc r) = m ((c : Thread nD τ).loc r) :=
  (W4_of_ne m c r hb).trans (W3_launch m c r ha h3 h4 h5 h6 h7)

/-- An input window of the dense-layers region is left by it as entered. -/
theorem W4_input (c : Dev nD) (w : Fin cfg1.W) (hw : (cfg1.win w).isOut = false) :
    W4 m c (Proc.devRef .tc (Pipeline.arrRef spec1 w)) = V3 m c (Pipeline.arrRef spec1 w) :=
  (W4_arr m c w).trans (((dat1 (V3 m) c).arrAt_in w hw _).trans (A_eq1 (V3 m) c w))

/-! ## What the dense-layers region is entered from: the bias vectors, as launched -/

theorem V3_main_arg3 (c : Dev nD) : V3 m c main_arg3 = m ((c : Thread nD τ).loc main_arg3) :=
  W3_launch m c main_arg3 (by decide) (by decide) (by decide) (by decide) (by decide) (by decide)
theorem V3_main_arg5 (c : Dev nD) : V3 m c main_arg5 = m ((c : Thread nD τ).loc main_arg5) :=
  W3_launch m c main_arg5 (by decide) (by decide) (by decide) (by decide) (by decide) (by decide)
theorem V3_main_arg7 (c : Dev nD) : V3 m c main_arg7 = m ((c : Thread nD τ).loc main_arg7) :=
  W3_launch m c main_arg7 (by decide) (by decide) (by decide) (by decide) (by decide) (by decide)
theorem V3_main_arg9 (c : Dev nD) : V3 m c main_arg9 = m ((c : Thread nD τ).loc main_arg9) :=
  W3_launch m c main_arg9 (by decide) (by decide) (by decide) (by decide) (by decide) (by decide)

/-! ## The arguments end as launched -/

theorem W4_main_arg0 (c : Dev nD) : W4 m c (Proc.devRef .tc main_arg0) = m ((c : Thread nD τ).loc main_arg0) :=
  W4_launch m c main_arg0 (by decide) (by decide) (by decide) (by decide) (by decide) (by decide) (by decide)
theorem W4_main_arg1 (c : Dev nD) : W4 m c (Proc.devRef .tc main_arg1) = m ((c : Thread nD τ).loc main_arg1) :=
  W4_launch m c main_arg1 (by decide) (by decide) (by decide) (by decide) (by decide) (by decide) (by decide)
theorem W4_main_arg2 (c : Dev nD) : W4 m c (Proc.devRef .tc main_arg2) = m ((c : Thread nD τ).loc main_arg2) :=
  W4_launch m c main_arg2 (by decide) (by decide) (by decide) (by decide) (by decide) (by decide) (by decide)
theorem W4_main_arg3 (c : Dev nD) : W4 m c (Proc.devRef .tc main_arg3) = m ((c : Thread nD τ).loc main_arg3) :=
  (W4_input m c 2 rfl).trans (V3_main_arg3 m c)
theorem W4_main_arg4 (c : Dev nD) : W4 m c (Proc.devRef .tc main_arg4) = m ((c : Thread nD τ).loc main_arg4) :=
  W4_launch m c main_arg4 (by decide) (by decide) (by decide) (by decide) (by decide) (by decide) (by decide)
theorem W4_main_arg5 (c : Dev nD) : W4 m c (Proc.devRef .tc main_arg5) = m ((c : Thread nD τ).loc main_arg5) :=
  (W4_input m c 4 rfl).trans (V3_main_arg5 m c)
theorem W4_main_arg6 (c : Dev nD) : W4 m c (Proc.devRef .tc main_arg6) = m ((c : Thread nD τ).loc main_arg6) :=
  W4_launch m c main_arg6 (by decide) (by decide) (by decide) (by decide) (by decide) (by decide) (by decide)
theorem W4_main_arg7 (c : Dev nD) : W4 m c (Proc.devRef .tc main_arg7) = m ((c : Thread nD τ).loc main_arg7) :=
  (W4_input m c 6 rfl).trans (V3_main_arg7 m c)
theorem W4_main_arg8 (c : Dev nD) : W4 m c (Proc.devRef .tc main_arg8) = m ((c : Thread nD τ).loc main_arg8) :=
  W4_launch m c main_arg8 (by decide) (by decide) (by decide) (by decide) (by decide) (by decide) (by decide)
theorem W4_main_arg9 (c : Dev nD) : W4 m c (Proc.devRef .tc main_arg9) = m ((c : Thread nD τ).loc main_arg9) :=
  (W4_input m c 8 rfl).trans (V3_main_arg9 m c)

/-! ## What the distance region is entered from -/

theorem V1_main_v0 (c : Dev nD) :
    (V1 m c main_v0 : Vec F S65536x3 .f32) = shapeCast S65536x3 (m ((c : Thread nD τ).loc main_arg0) : Vec F S64x1024x3 .f32) shapeCasts_S64x1024x3_S65536x3 := by
  show StableHlo.after hostOps0 (W0 m c) (Proc.devRef .tc main_v0) = _
  after_results
  rfl

theorem V1_main_v1 (c : Dev nD) :
    (V1 m c main_v1 : Vec F S3x4096 .f32) = transpose S3x4096 [1, 0] (m ((c : Thread nD τ).loc main_arg1) : Vec F S4096x3 .f32) transposes_S4096x3_S3x4096_1_0 := by
  show StableHlo.after hostOps0 (W0 m c) (Proc.devRef .tc main_v1) = _
  after_results

/-! ## What the dense-layers region is entered from: the distances reshaped, the weights converted -/

theorem V3_main_v3 (c : Dev nD) :
    (V3 m c main_v3 : Vec F S64x1024 .f32) = shapeCast S64x1024 ((dat0 (V1 m) c).arrAt 2 cfg0.N : Vec F S65536x1 .f32) shapeCasts_S65536x1_S64x1024 := by
  show StableHlo.after hostOps1 (W2 m c) (Proc.devRef .tc main_v3) = _
  after_results
  rw [show W2 m c (Proc.devRef .tc main_v2) = (dat0 (V1 m) c).arrAt 2 cfg0.N from W2_arr m c 2]
  rfl

theorem V3_main_v4 (c : Dev nD) :
    (V3 m c main_v4 : Vec F S1024x2048 .bf16) = truncf .bf16 (m ((c : Thread nD τ).loc main_arg2) : Vec F S1024x2048 .f32) bitsLt_bf16_f32 := by
  show StableHlo.after hostOps1 (W2 m c) (Proc.devRef .tc main_v4) = _
  after_results
  rw [W2_launch m c main_arg2 (by decide)]

theorem V3_main_v5 (c : Dev nD) :
    (V3 m c main_v5 : Vec F S2048x2048 .bf16) = truncf .bf16 (m ((c : Thread nD τ).loc main_arg4) : Vec F S2048x2048 .f32) bitsLt_bf16_f32 := by
  show StableHlo.after hostOps1 (W2 m c) (Proc.devRef .tc main_v5) = _
  after_results
  rw [W2_launch m c main_arg4 (by decide)]

theorem V3_main_v6 (c : Dev nD) :
    (V3 m c main_v6 : Vec F S2048x2048 .bf16) = truncf .bf16 (m ((c : Thread nD τ).loc main_arg6) : Vec F S2048x2048 .f32) bitsLt_bf16_f32 := by
  show StableHlo.after hostOps1 (W2 m c) (Proc.devRef .tc main_v6) = _
  after_results
  rw [W2_launch m c main_arg6 (by decide)]

theorem V3_main_v7 (c : Dev nD) :
    (V3 m c main_v7 : Vec F S2048x512 .bf16) = truncf .bf16 (m ((c : Thread nD τ).loc main_arg8) : Vec F S2048x512 .f32) bitsLt_bf16_f32 := by
  show StableHlo.after hostOps1 (W2 m c) (Proc.devRef .tc main_v7) = _
  after_results
  rw [W2_launch m c main_arg8 (by decide)]

/-- The result buffer ends at what the dense-layers region's write-back leaves. -/
theorem W4_main_v8 (c : Dev nD) : W4 m c (Proc.devRef .tc main_v8) = (dat1 (V3 m) c).arrAt 9 cfg1.N :=
  W4_arr m c 9

end Cert.KernelIdeal.Hand

end
-- ==== Proof.KI.Frame.lean ====
/-
  The frame of the program: every weakly fair execution of @main terminates, nothing faulting, and each argument
  array ends as launched — no host operation writes an argument and each region only reads them.
-/
import proofs.«178117_j33715493273844_1_alg».proof.Proof.KI.MainRun
import proofs.«178117_j33715493273844_1_alg».proof.Proof.KI.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  -- the run ends with every unscoped buffer at the last boundary's contents; there each argument holds what it was launched with
  (θ_run (defs (F := F)) _ _).mono
    (fun r h c =>
      ⟨(h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c),
       (h c _ (mem_uc main_arg9 (by decide))).trans (W4_main_arg9 m c)⟩)
    (run_all m ρ)

end Cert.KernelIdeal.Hand

end
-- ==== Proof.KI.Arr.lean ====
/-
  Blocks and arrays of the two regions, read at an index. The dense-layers region's one point reads every input
  whole, so its result array is the layers of the entry contents. In the distance region, point t = 8 r + s reads
  rows 2048 r .. 2048 r + 2047 of the points and columns 512 s .. 512 s + 511 of the transposed basis, and the
  last tile of row-tile r writes rows 2048 r .. of the result; the 32 write-backs cover the result array.
-/
import proofs.«178117_j33715493273844_1_alg».proof.Proof.KI.Dat0
import proofs.«178117_j33715493273844_1_alg».proof.Proof.KI.Dat1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section

variable (V : (c : Dev nD) → (b : Ref sig .tc) → Buf (Elt F) ((c : Thread nD τ).loc b))

/-! ## The dense-layers region: every window is its whole array -/

/-- At the region's one point each input window's block is its array: the block has the array's shape and sits at
    block index zero. -/
theorem iblk1_0 (c : Dev nD) (t : Fin cfg1.N) : (iblk1 V c 0 t : Vec F S64x1024 .f32) = V c main_v3 := by
  obtain rfl := fin_N1 t
  have hz : (fun a => win1_0.index t1_0 a * main_v3.ty.shape.size a) = fun _ => 0 := funext fun a => by fin_cases a <;> decide +kernel
  exact Memref.read_access_unit_zero (Elt F) main_v3 hz (fun a => by rw [congrFun hz a]; simp) (V c main_v3)
theorem iblk1_1 (c : Dev nD) (t : Fin cfg1.N) : (iblk1 V c 1 t : Vec F S1024x2048 .bf16) = V c main_v4 := by
  obtain rfl := fin_N1 t
  have hz : (fun a => win1_1.index t1_0 a * main_v4.ty.shape.size a) = fun _ => 0 := funext fun a => by fin_cases a <;> decide +kernel
  exact Memref.read_access_unit_zero (Elt F) main_v4 hz (fun a => by rw [congrFun hz a]; simp) (V c main_v4)
theorem iblk1_2 (c : Dev nD) (t : Fin cfg1.N) : (iblk1 V c 2 t : Vec F S2048 .f32) = V c main_arg3 := by
  obtain rfl := fin_N1 t
  have hz : (fun a => win1_2.index t1_0 a * main_arg3.ty.shape.size a) = fun _ => 0 := funext fun a => by fin_cases a <;> decide +kernel
  exact Memref.read_access_unit_zero (Elt F) main_arg3 hz (fun a => by rw [congrFun hz a]; simp) (V c main_arg3)
theorem iblk1_3 (c : Dev nD) (t : Fin cfg1.N) : (iblk1 V c 3 t : Vec F S2048x2048 .bf16) = V c main_v5 := by
  obtain rfl := fin_N1 t
  have hz : (fun a => win1_3.index t1_0 a * main_v5.ty.shape.size a) = fun _ => 0 := funext fun a => by fin_cases a <;> decide +kernel
  exact Memref.read_access_unit_zero (Elt F) main_v5 hz (fun a => by rw [congrFun hz a]; simp) (V c main_v5)
theorem iblk1_4 (c : Dev nD) (t : Fin cfg1.N) : (iblk1 V c 4 t : Vec F S2048 .f32) = V c main_arg5 := by
  obtain rfl := fin_N1 t
  have hz : (fun a => win1_4.index t1_0 a * main_arg5.ty.shape.size a) = fun _ => 0 := funext fun a => by fin_cases a <;> decide +kernel
  exact Memref.read_access_unit_zero (Elt F) main_arg5 hz (fun a => by rw [congrFun hz a]; simp) (V c main_arg5)
theorem iblk1_5 (c : Dev nD) (t : Fin cfg1.N) : (iblk1 V c 5 t : Vec F S2048x2048 .bf16) = V c main_v6 := by
  obtain rfl := fin_N1 t
  have hz : (fun a => win1_5.index t1_0 a * main_v6.ty.shape.size a) = fun _ => 0 := funext fun a => by fin_cases a <;> decide +kernel
  exact Memref.read_access_unit_zero (Elt F) main_v6 hz (fun a => by rw [congrFun hz a]; simp) (V c main_v6)
theorem iblk1_6 (c : Dev nD) (t : Fin cfg1.N) : (iblk1 V c 6 t : Vec F S2048 .f32) = V c main_arg7 := by
  obtain rfl := fin_N1 t
  have hz : (fun a => win1_6.index t1_0 a * main_arg7.ty.shape.size a) = fun _ => 0 := funext fun a => by fin_cases a <;> decide +kernel
  exact Memref.read_access_unit_zero (Elt F) main_arg7 hz (fun a => by rw [congrFun hz a]; simp) (V c main_arg7)
theorem iblk1_7 (c : Dev nD) (t : Fin cfg1.N) : (iblk1 V c 7 t : Vec F S2048x512 .bf16) = V c main_v7 := by
  obtain rfl := fin_N1 t
  have hz : (fun a => win1_7.index t1_0 a * main_v7.ty.shape.size a) = fun _ => 0 := funext fun a => by fin_cases a <;> decide +kernel
  exact Memref.read_access_unit_zero (Elt F) main_v7 hz (fun a => by rw [congrFun hz a]; simp) (V c main_v7)
theorem iblk1_8 (c : Dev nD) (t : Fin cfg1.N) : (iblk1 V c 8 t : Vec F S512 .f32) = V c main_arg9 := by
  obtain rfl := fin_N1 t
  have hz : (fun a => win1_8.index t1_0 a * main_arg9.ty.shape.size a) = fun _ => 0 := funext fun a => by fin_cases a <;> decide +kernel
  exact Memref.read_access_unit_zero (Elt F) main_arg9 hz (fun a => by rw [congrFun hz a]; simp) (V c main_arg9)

/-- The dense-layers region's result array: the layers of its nine inputs as the region finds them. -/
theorem arrAt1_9 (c : Dev nD) :
    ((dat1 V c).arrAt 9 cfg1.N : Vec F S64x512 .f32)
      = mlpOut (V c main_v3) (V c main_v4) (V c main_arg3) (V c main_v5) (V c main_arg5) (V c main_v6) (V c main_arg7) (V c main_v7) (V c main_arg9) := by
  refine (dat1 V c).arrAt_eq_of_cover 9 _ (fun t _ => ?_) (fun i => ⟨t1_0, flush1_9 t1_0, ?_⟩)
  · -- the one write-back writes the layers of the nine arrays: the result block is the whole result array
    show (cfg1.win 9).cut (grid1.coords t) ((dat1 V c).after 9 t) = _
    rw [after1_9]
    unfold out1
    rw [iblk1_0, iblk1_1, iblk1_2, iblk1_3, iblk1_4, iblk1_5, iblk1_6, iblk1_7, iblk1_8]
    generalize mlpOut (V c main_v3) (V c main_v4) (V c main_arg3) (V c main_v5) (V c main_arg5) (V c main_v6) (V c main_arg7) (V c main_v7) (V c main_arg9) = G
    obtain rfl := fin_N1 t
    have hz : (fun a => win1_9.index t1_0 a * main_v8.ty.shape.size a) = fun _ => 0 := funext fun a => by fin_cases a <;> decide +kernel
    exact (Memref.read_access_unit_zero (Elt F) main_v8 hz (fun a => by rw [congrFun hz a]; simp) G).symm
  · -- and that block covers the array
    have hi0 : (i 0).val < 64 := (i 0).isLt
    have hi1 : (i 1).val < 512 := (i 1).isLt
    have e0 : win1_9.index t1_0 (0 : Fin 2) = 0 := by decide +kernel
    have e1 : win1_9.index t1_0 (1 : Fin 2) = 0 := by decide +kernel
    show i ∈ ((View.whole main_v8).slice (win1_9.rect t1_0)).set
    rw [View.set_slice_whole, Rect.mem_set_unit]
    intro a
    match a with
    | ⟨0, _⟩ =>
      show win1_9.index t1_0 (0 : Fin 2) * 64 ≤ (i 0).val ∧ (i 0).val < win1_9.index t1_0 (0 : Fin 2) * 64 + 64
      rw [e0]; omega
    | ⟨1, _⟩ =>
      show win1_9.index t1_0 (1 : Fin 2) * 512 ≤ (i 1).val ∧ (i 1).val < win1_9.index t1_0 (1 : Fin 2) * 512 + 512
      rw [e1]; omega

/-! ## The index maps, decided over the grid -/

/-- The tile of points at point t is row-tile t / 8; -/
theorem idx0_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- the tile of basis vectors is column-tile t % 8; -/
theorem idx0_1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
/-- the result block is row-tile t / 8. -/
theorem idx0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The tile of points at point `t`: rows 2048 (t / 8) .. of the reshaped points. -/
theorem pblk_apply (c : Dev nD) (t : Fin cfg0.N) (p : Fin 2048) (k : Fin 3) (h : (t.val / 8) * 2048 + p.val < 65536) :
    pblk V c t (ix2 p k) = (V c main_v0 : Vec F S65536x3 .f32) (ix2 ⟨(t.val / 8) * 2048 + p.val, h⟩ k) := by
  obtain ⟨e0, e1⟩ := idx0_0 t
  show ((cfg0.win 0).blk t).view.read (Elt F) (V c (Pipeline.arrRef spec0 0)) (ix2 p k) = _
  rw [View.read_apply]
  show (V c main_v0 : Vec F S65536x3 .f32) _ = (V c main_v0 : Vec F S65536x3 .f32) _
  refine congrArg (V c main_v0 : Vec F S65536x3 .f32) ?_
  funext a
  apply Fin.ext
  match a with
  | ⟨0, _⟩ => show win0_0.index t (0 : Fin 2) * 2048 + 1 * p.val = (t.val / 8) * 2048 + p.val; rw [e0]; omega
  | ⟨1, _⟩ => show win0_0.index t (1 : Fin 2) * 3 + 1 * k.val = k.val; rw [e1]; omega

/-- The tile of basis vectors at point `t`: columns 512 (t % 8) .. of the transposed basis. -/
theorem qblk_apply (c : Dev nD) (t : Fin cfg0.N) (k : Fin 3) (j : Fin 512) (h : (t.val % 8) * 512 + j.val < 4096) :
    qblk V c t (ix2 k j) = (V c main_v1 : Vec F S3x4096 .f32) (ix2 k ⟨(t.val % 8) * 512 + j.val, h⟩) := by
  obtain ⟨e0, e1⟩ := idx0_1 t
  show ((cfg0.win 1).blk t).view.read (Elt F) (V c (Pipeline.arrRef spec0 1)) (ix2 k j) = _
  rw [View.read_apply]
  show (V c main_v1 : Vec F S3x4096 .f32) _ = (V c main_v1 : Vec F S3x4096 .f32) _
  refine congrArg (V c main_v1 : Vec F S3x4096 .f32) ?_
  funext a
  apply Fin.ext
  match a with
  | ⟨0, _⟩ => show win0_1.index t (0 : Fin 2) * 3 + 1 * k.val = k.val; rw [e0]; omega
  | ⟨1, _⟩ => show win0_1.index t (1 : Fin 2) * 512 + 1 * j.val = (t.val % 8) * 512 + j.val; rw [e1]; omega

/-- The distance region's result array is any `G` whose rows 2048 r .. are what the accumulator holds after the
    last tile of row-tile r. -/
theorem arrAt0_2 (c : Dev nD) (G : Vec F S65536x1 .f32)
    (hG : ∀ (t : Fin cfg0.N), t.val % 8 = 7 → ∀ (p : Fin 2048) (h : (t.val / 8) * 2048 + p.val < 65536),
      acc0 V c t.val t.isLt (ix2 p (0 : Fin 1)) = G (ix2 ⟨(t.val / 8) * 2048 + p.val, h⟩ (0 : Fin 1))) :
    ((dat0 V c).arrAt 2 cfg0.N : Vec F S65536x1 .f32) = G := by
  refine (dat0 V c).arrAt_eq_of_cover 2 G (fun t hf => ?_) (fun i => ?_)
  · -- what a last tile writes back is its rows of G
    have h7 : t.val % 8 = 7 := (flush0_2 t).mp hf
    have hN : t.val < 256 := lt_of_lt_of_eq t.isLt (show cfg0.N = 256 from N_0)
    obtain ⟨e0, e1⟩ := idx0_2 t
    show (cfg0.win 2).cut (grid0.coords t) ((dat0 V c).after 2 t) = _
    rw [after0_2]
    funext y
    rw [View.read_apply]
    have hy0 : (y 0).val < 2048 := (y 0).isLt
    have hy1 : (y 1).val < 1 := (y 1).isLt
    have hb : (t.val / 8) * 2048 + (y 0).val < 65536 := by omega
    have hy : (y : S2048x1.Idx) = ix2 (⟨(y 0).val, hy0⟩ : Fin 2048) (0 : Fin 1) := by
      funext a
      match a with
      | ⟨0, _⟩ => rfl
      | ⟨1, _⟩ => exact Fin.ext (by show (y 1).val = 0; omega)
    show acc0 V c t.val t.isLt y = G (((cfg0.win 2).blk t).view.emb y)
    refine (congrArg (acc0 V c t.val t.isLt) hy).trans ((hG t h7 ⟨(y 0).val, hy0⟩ hb).trans (congrArg G ?_))
    funext a
    apply Fin.ext
    match a with
    | ⟨0, _⟩ => show (t.val / 8) * 2048 + (y 0).val = win0_2.index t (0 : Fin 2) * 2048 + 1 * (y 0).val; rw [e0]; omega
    | ⟨1, _⟩ => show 0 = win0_2.index t (1 : Fin 2) * 1 + 1 * (y 1).val; rw [e1]; omega
  · -- row i of the result is in the block of the last tile of its row-tile
    have hi0 : (i 0).val < 65536 := (i 0).isLt
    have hi1 : (i 1).val < 1 := (i 1).isLt
    have hlt : 8 * ((i 0).val / 2048) + 7 < cfg0.N := by rw [show cfg0.N = 256 from N_0]; omega
    refine ⟨⟨8 * ((i 0).val / 2048) + 7, hlt⟩, (flush0_2 _).mpr (by show (8 * ((i 0).val / 2048) + 7) % 8 = 7; omega), ?_⟩
    obtain ⟨e0, e1⟩ := idx0_2 ⟨8 * ((i 0).val / 2048) + 7, hlt⟩
    show i ∈ ((View.whole main_v2).slice (win0_2.rect ⟨8 * ((i 0).val / 2048) + 7, hlt⟩)).set
    rw [View.set_slice_whole, Rect.mem_set_unit]
    intro a
    match a with
    | ⟨0, _⟩ =>
      show win0_2.index ⟨8 * ((i 0).val / 2048) + 7, hlt⟩ (0 : Fin 2) * 2048 ≤ (i 0).val ∧ (i 0).val < win0_2.index ⟨8 * ((i 0).val / 2048) + 7, hlt⟩ (0 : Fin 2) * 2048 + 2048
      rw [e0]; show (8 * ((i 0).val / 2048) + 7) / 8 * 2048 ≤ (i 0).val ∧ (i 0).val < (8 * ((i 0).val / 2048) + 7) / 8 * 2048 + 2048; omega
    | ⟨1, _⟩ =>
      show win0_2.index ⟨8 * ((i 0).val / 2048) + 7, hlt⟩ (1 : Fin 2) * 1 ≤ (i 1).val ∧ (i 1).val < win0_2.index ⟨8 * ((i 0).val / 2048) + 7, hlt⟩ (1 : Fin 2) * 1 + 1
      rw [e1]; omega

end

end Cert.KernelIdeal.Hand

end
-- ==== Proof.DistSpec.lean ====
/-
  The distance computation, entry by entry over the extended reals: the distance of a point P to a basis vector Q as
  both programs compute it, sqrt (max (|P|^2 + |Q|^2 - 2 P.Q) eps), and a point's minimum distance to the 4096
  basis vectors, as a fold of min from +infinity.
-/
import Idealize.ShloMosaic.PureOps.Ideal
import Idealize.ShloMosaic.Lib.ValueIdx

noncomputable section

namespace Cert.DistSpec

open Idealize.ShloMosaic Idealize.ShloMosaic.ValueIdx

/-- The value both programs start a minimum from: the word of +infinity. -/
def inf : EReal := Ideal.ofBits .f32 0x7F800000#32

/-- The distance of the point with coordinates `P` to the basis vector with coordinates `Q`. -/
def pdist (P Q : Fin 3 → EReal) : EReal :=
  Ideal.sqrt (max (((∑ k, P k * P k) + (∑ k, Q k * Q k)) - Ideal.ofBits .f32 0x40000000#32 * (∑ k, P k * Q k))
    (Ideal.ofBits .f32 0x2B8CBCCC#32))

/-- The minimum distance of point (b, n) to the basis. -/
def minDist (pos : (⟨3, ![64, 1024, 3]⟩ : Shape).Idx → EReal) (basis : (⟨2, ![4096, 3]⟩ : Shape).Idx → EReal)
    (b : Fin 64) (n : Fin 1024) : EReal :=
  (Finset.univ : Finset (Fin 4096)).fold min inf
    (fun j => pdist (fun k => pos (ix3 b n k)) (fun k => basis (ix2 j k)))

/-- The array of minimum distances. -/
def minDistArr (pos : (⟨3, ![64, 1024, 3]⟩ : Shape).Idx → EReal) (basis : (⟨2, ![4096, 3]⟩ : Shape).Idx → EReal) :
    (⟨2, ![64, 1024]⟩ : Shape).Idx → EReal :=
  fun i => minDist pos basis (i 0) (i 1)

end Cert.DistSpec

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibRowMin.lean ====
/-
  A minimum along the rows of a two-dimensional array, read at a row.

  Reducing an [m, n] array over its second axis with the minimum leaves an [m] array; at row p it is the minimum
  of the starting value and of the row's n entries, in whatever order they are combined.  The same reading holds
  for a kernel's vector reduction and for a host reduction with a minimum body.  Stated for any extents.
-/
import Idealize.ShloMosaic.Lib.ValueIdx
import Idealize.ShloMosaic.PureOps.Ideal.Laws

noncomputable section

namespace RowMin

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A kernel's minimum over the second axis, at row p: the minimum of the starting word's value and the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.minimumf.neutral φ hφ) (p : Fin m) :
    multiReduction .minimumf [1] (⟨1, ![m]⟩ : Shape) src acc h hφ hacc (ix1 p)
      = (Finset.univ : Finset (Fin n)).fold min (Ideal.ofBits φ acc) (fun k => src (ix2 p k)) := by
  rw [multiReduction_minimumf_eq_fold]
  refine (h.fold_filter_drop_single _ _ src (ix1 p)).trans ?_
  show (Finset.univ : Finset (Fin n)).fold min (Ideal.ofBits φ acc) (src ∘ h.lift (ix1 p)) = _
  exact Finset.fold_congr fun k _ => congrArg src (lift_ix2 h p k)

/-- A host reduction with a minimum body over the second axis, at row p: the same minimum, from the initial value. -/
theorem hostReduce_apply {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.minimumf (F := Ideal) (φ := φ)) x init h' hu (ix1 p)
      = (Finset.univ : Finset (Fin n)).fold min (init (Shape.Idx.first hu)) (fun k => x (ix2 p k)) := by
  rw [Host.reduce_eq_fold_single (FloatOps.minimumf (F := Ideal) (φ := φ)) x init h' h hu (ix1 p)]
  show (Finset.univ : Finset (Fin n)).fold min (init (Shape.Idx.first hu)) (x ∘ h.lift (ix1 p)) = _
  exact Finset.fold_congr fun k _ => congrArg x (lift_ix2 h p k)

end RowMin

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.ValTile.lean ====
/-
  One point of the distance kernel over the extended reals, entry by entry: after a reset every row of the
  accumulator is +infinity; folding a tile of 2048 points and a tile of 512 basis vectors into an accumulator
  `a` leaves in row p the minimum of `a`'s row and of the 512 distances of point p to the tile's vectors. A change
  of float format is the identity here, the matrix unit's product into a zero accumulator is the plain sum of
  products, and a vector reduction is the fold of its operation over the reduced axis.
-/
import proofs.«178117_j33715493273844_1_alg».proof.Proof.KI.Run0
import proofs.«178117_j33715493273844_1_alg».proof.Proof.DistSpec
import proofs.«178117_j33715493273844_1_alg».proof.Proof.LibKeepdims
import proofs.«178117_j33715493273844_1_alg».proof.Proof.LibRowLayout
import proofs.«178117_j33715493273844_1_alg».proof.Proof.LibRowSum
import proofs.«178117_j33715493273844_1_alg».proof.Proof.LibRowMin
import proofs.«178117_j33715493273844_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Cert.KernelIdeal Cert.KernelIdeal.Gen
open Cert.DistSpec

namespace Tile

/-! ## The two layout and reduction steps the general lemma files do not have -/

/-- A sum down the columns of a two-dimensional array, read at a column: reducing an [m, n] array over its first
    axis from the zero word leaves, at column q, the sum of the column's m entries. -/
theorem colSum_apply {m n : Nat} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.add.neutral φ hφ) (q : Fin n) :
    multiReduction .add [0] (⟨1, ![n]⟩ : Shape) src acc h hφ hacc (ix1 q) = ∑ k : Fin m, src (ix2 k q) := by
  refine (Ideal.multiReduction_add_single src acc h hφ hacc (ix1 q)).trans ?_
  refine Finset.sum_congr rfl fun k _ => congrArg src ?_
  funext c; apply Fin.ext
  fin_cases c <;> rfl

/-- An [n] array cast to [1, n] reads, at (u, q), the operand at q, whatever the unit coordinate u. -/
theorem shapeCast_n_1n_apply {α : Type} {n : ℕ} (x : (⟨1, ![n]⟩ : Shape).Idx → α)
    (h : (⟨1, ![n]⟩ : Shape).ShapeCasts ⟨2, ![1, n]⟩) (u : Fin 1) (q : Fin n) :
    shapeCast ⟨2, ![1, n]⟩ x h (ix2 u q) = x (ix1 q) :=
  shapeCast_apply x h _ _ (by
    have hu : u.val = 0 := by omega
    rw [Shape.rowMajor_val_two, Shape.rowMajor_val_one]
    show q.val = u.val * n + q.val
    rw [hu, Nat.zero_mul, Nat.zero_add])

/-! ## The stages of one point, each read at an entry -/

/-- The squared length of point p of the tile: the row sum of the squares, kept as a column. -/
theorem sqRow_apply (v4 : FVec Ideal S2048x3 .f32) (h1 : S2048x3.Reduces [1] S2048) (h2 : S2048.ShapeCasts S2048x1)
    (p : Fin 2048) (u : Fin 1) :
    shapeCast S2048x1 (multiReduction (F := Ideal) .add [1] S2048 (mulf v4 v4) 0x00000000#32 h1 (.inl rfl) rfl) h2 (ix2 p u)
      = ∑ k : Fin 3, v4 (ix2 p k) * v4 (ix2 p k) :=
  (KeepdimsLayout.shapeCast_a_a1_apply _ h2 p u).trans
    (RowSum.multiReduction_apply (mulf v4 v4) 0x00000000#32 h1 (.inl rfl) rfl p)

/-- The squared length of basis vector j of the tile: the column sum of the squares, kept as a row. -/
theorem sqCol_apply (v6 : FVec Ideal S3x512 .f32) (h1 : S3x512.Reduces [0] S512) (h2 : S512.ShapeCasts S1x512)
    (u : Fin 1) (j : Fin 512) :
    shapeCast S1x512 (multiReduction (F := Ideal) .add [0] S512 (mulf v6 v6) 0x00000000#32 h1 (.inl rfl) rfl) h2 (ix2 u j)
      = ∑ k : Fin 3, v6 (ix2 k j) * v6 (ix2 k j) :=
  (shapeCast_n_1n_apply _ h2 u j).trans
    (colSum_apply (mulf v6 v6) 0x00000000#32 h1 (.inl rfl) rfl j)

/-- The record of the kernel's matrix product is a plain product's. -/
theorem dot_isPlain : PlainDot.IsPlain dot_S2048x3_S3x512_S2048x512_1_0_0_1_n_n := ⟨rfl, rfl, rfl, rfl, rfl, rfl⟩

/-- The inner product of point p and basis vector j: the matrix unit's product of the two tiles, whose change of
    format is the identity, into the zero accumulator. -/
theorem inner_apply (v4 : FVec Ideal S2048x3 .f32) (v6 : FVec Ideal S3x512 .f32) (hb : FTy.bits .bf16 < FTy.bits .f32)
    (p : Fin 2048) (j : Fin 512) :
    matmul dot_S2048x3_S3x512_S2048x512_1_0_0_1_n_n none (truncf .bf16 v4 hb) (truncf .bf16 v6 hb)
        (constant (F := Ideal) S2048x512 .f32 0x00000000#32) (ix2 p j)
      = ∑ k : Fin 3, v4 (ix2 p k) * v6 (ix2 k j) :=
  PlainDot.matmul_zero_apply dot_isPlain none (truncf .bf16 v4 hb) (truncf .bf16 v6 hb) p j

/-- The distance at (p, j) from the three arrays it is made of: the column of squared lengths and the row of squared
    lengths spread over the matrix, their sum less twice the inner products, bounded below, and the square root. -/
theorem dist_apply (v9 : FVec Ideal S2048x1 .f32) (v12 : FVec Ideal S1x512 .f32) (v15 : FVec Ideal S2048x512 .f32)
    (c2 ce : Ideal .f32) (hb1 : S2048x1.Broadcasts S2048x512) (hb2 : S1x512.Broadcasts S2048x512)
    (p : Fin 2048) (j : Fin 512) :
    sqrt (maximumf (subf (addf (broadcastTo S2048x512 v9 hb1) (broadcastTo S2048x512 v12 hb2))
        (mulf (broadcast S2048x512 c2) v15)) (broadcast S2048x512 ce)) (ix2 p j)
      = Ideal.sqrt (max ((v9 (ix2 p (0 : Fin 1)) + v12 (ix2 (0 : Fin 1) j)) - c2 * v15 (ix2 p j)) ce) := by
  show Ideal.sqrt (max ((broadcastTo S2048x512 v9 hb1 (ix2 p j) + broadcastTo S2048x512 v12 hb2 (ix2 p j))
    - c2 * v15 (ix2 p j)) ce) = _
  rw [KeepdimsLayout.broadcastTo_a1_ab_apply v9 hb1 p j, RowLayout.broadcastTo_1b_ab_apply v12 hb2 p j]

end Tile

/-- After a reset every row of the accumulator holds +infinity. -/
theorem accInit_apply (p : Fin 2048) : (accInit (F := Ideal)) (ix2 p (0 : Fin 1)) = inf := by
  unfold accInit k0_pay1
  exact (congrFun (shapeCast_self _ _) _).trans rfl

/-- One fold: row p of the accumulator becomes the minimum of what it held and of the distances of point p of the
    tile to the tile's 512 basis vectors. -/
theorem tileAcc_apply (x0 : Vec Ideal S2048x3 .f32) (x1 : Vec Ideal S3x512 .f32) (a : Vec Ideal S2048x1 .f32) (p : Fin 2048) :
    tileAcc x0 x1 a (ix2 p (0 : Fin 1))
      = min (a (ix2 p (0 : Fin 1)))
          ((Finset.univ : Finset (Fin 512)).fold min inf (fun j => pdist (fun k => x0 (ix2 p k)) (fun k => x1 (ix2 k j)))) := by
  unfold tileAcc k0_pay2
  -- the last cast is to the same shape; the minimum with the accumulator is taken entry by entry
  refine (congrFun (shapeCast_self _ _) _).trans ?_
  show min (a (ix2 p (0 : Fin 1))) _ = _
  refine congrArg (min (a (ix2 p (0 : Fin 1)))) ?_
  -- the row minimum, kept as a column
  refine (KeepdimsLayout.shapeCast_a_a1_apply _ _ p 0).trans ?_
  refine (RowMin.multiReduction_apply _ _ _ _ _ p).trans ?_
  refine Finset.fold_congr fun j _ => ?_
  -- the distance at (p, j)
  refine (Tile.dist_apply _ _ _ _ _ _ _ p j).trans ?_
  rw [Tile.sqRow_apply, Tile.sqCol_apply, Tile.inner_apply, shapeCast_self, shapeCast_self]
  rfl

end Cert.KernelIdeal.Hand

end
-- ==== Proof.LibMinFold.lean ====
/-
  Running minima over an initial segment of a finite index range.

  For a family g over Fin N and a starting value b, the minimum of b and of g over the indices below n is
  characterised by its lower bounds: z is below it exactly when z is below b and below every g c with c < n.
  From that: the segment below 0 gives b, a segment reaching N gives the minimum over the whole range, and a
  segment is extended by a block of B further indices by taking the minimum with that block's own minimum
  (started from the same b: taking b in twice changes nothing).  Stated for any linear order.
-/
import Mathlib.Data.Finset.Fold
import Mathlib.Data.Fintype.Basic
import Mathlib.Order.Lattice

namespace MinFold

variable {α : Type*} [LinearOrder α]

/-- The minimum of `b` and of `g c` over the indices `c` below `n`. -/
def minBelow {N : ℕ} (b : α) (g : Fin N → α) (n : ℕ) : α :=
  (Finset.univ.filter fun c : Fin N => c.val < n).fold min b g

/-- Lower bounds of a minimum over the whole range. -/
theorem le_fold_min_univ {N : ℕ} (b : α) (g : Fin N → α) (z : α) :
    z ≤ (Finset.univ : Finset (Fin N)).fold min b g ↔ z ≤ b ∧ ∀ c : Fin N, z ≤ g c := by
  rw [Finset.le_fold_min]
  exact ⟨fun h => ⟨h.1, fun c => h.2 c (Finset.mem_univ c)⟩, fun h => ⟨h.1, fun c _ => h.2 c⟩⟩

/-- Lower bounds of a running minimum. -/
theorem le_minBelow_iff {N : ℕ} (b : α) (g : Fin N → α) (n : ℕ) (z : α) :
    z ≤ minBelow b g n ↔ z ≤ b ∧ ∀ c : Fin N, c.val < n → z ≤ g c := by
  unfold minBelow
  rw [Finset.le_fold_min]
  refine ⟨fun h => ⟨h.1, fun c hc => h.2 c (Finset.mem_filter.2 ⟨Finset.mem_univ c, hc⟩)⟩,
    fun h => ⟨h.1, fun c hc => h.2 c (Finset.mem_filter.1 hc).2⟩⟩

/-- Below index 0 there is nothing: the running minimum is the starting value. -/
theorem minBelow_zero {N : ℕ} (b : α) (g : Fin N → α) : minBelow b g 0 = b := by
  refine eq_of_forall_le_iff fun z => ?_
  rw [le_minBelow_iff]
  exact ⟨fun h => h.1, fun h => ⟨h, fun c hc => absurd hc (Nat.not_lt_zero _)⟩⟩

/-- A segment that reaches the end is the whole range. -/
theorem minBelow_all {N : ℕ} (b : α) (g : Fin N → α) (n : ℕ) (h : N ≤ n) :
    minBelow b g n = (Finset.univ : Finset (Fin N)).fold min b g := by
  refine eq_of_forall_le_iff fun z => ?_
  rw [le_minBelow_iff, le_fold_min_univ]
  exact ⟨fun hz => ⟨hz.1, fun c => hz.2 c (lt_of_lt_of_le c.isLt h)⟩, fun hz => ⟨hz.1, fun c _ => hz.2 c⟩⟩

/-- Extending a segment by a block of `B` indices: the minimum with the block's own minimum. -/
theorem minBelow_add {N B : ℕ} (b : α) (g : Fin N → α) (h : Fin B → α) (n : ℕ) (hn : n + B ≤ N)
    (e : ∀ q : Fin B, h q = g ⟨n + q.val, lt_of_lt_of_le (Nat.add_lt_add_left q.isLt n) hn⟩) :
    min (minBelow b g n) ((Finset.univ : Finset (Fin B)).fold min b h) = minBelow b g (n + B) := by
  refine eq_of_forall_le_iff fun z => ?_
  rw [le_min_iff, le_minBelow_iff, le_minBelow_iff, le_fold_min_univ]
  constructor
  · rintro ⟨⟨hb, h1⟩, -, h2⟩
    refine ⟨hb, fun c hc => ?_⟩
    by_cases hlt : c.val < n
    · exact h1 c hlt
    · have hq : c.val - n < B := by omega
      have := h2 ⟨c.val - n, hq⟩
      rw [e] at this
      have hc' : (⟨n + (c.val - n), lt_of_lt_of_le (Nat.add_lt_add_left hq n) hn⟩ : Fin N) = c :=
        Fin.ext (by show n + (c.val - n) = c.val; omega)
      rwa [hc'] at this
  · rintro ⟨hb, h1⟩
    refine ⟨⟨hb, fun c hc => h1 c (by omega)⟩, hb, fun q => ?_⟩
    rw [e]
    exact h1 _ (by show n + q.val < n + B; have := q.isLt; omega)

end MinFold
-- ==== Proof.ValDist.lean ====
/-
  The distance region's result over the extended reals. Along a row tile the accumulator is a running minimum:
  after the tile s of row-tile r, row p of the accumulator holds the minimum, from +infinity, of the distances of
  point 2048 r + p to the basis vectors below 512 (s + 1) — by induction on the point, one fold per tile —, so
  after the last tile it holds the point's minimum distance to the whole basis; these rows are what the 32
  write-backs put into the result array, which reshaped to [64, 1024] is the array of minimum distances.
-/
import proofs.«178117_j33715493273844_1_alg».proof.Proof.KI.Arr
import proofs.«178117_j33715493273844_1_alg».proof.Proof.KI.Entry
import proofs.«178117_j33715493273844_1_alg».proof.Proof.ValTile
import proofs.«178117_j33715493273844_1_alg».proof.Proof.LibMinFold

set_option maxRecDepth 16384

noncomputable section

namespace Cert.KernelIdeal.Hand

open Idealize.ShloMosaic Idealize.ShloMosaic.TcCoe Idealize.ShloMosaic.ValueIdx
open Cert.KernelIdeal Cert.KernelIdeal.Gen
open Cert.DistSpec MinFold

section Rows

variable (V : (c : Dev nD) → (b : Ref sig .tc) → Buf (Elt Ideal) ((c : Thread nD τ).loc b)) (c : Dev nD)
variable (pos : (⟨3, ![64, 1024, 3]⟩ : Shape).Idx → EReal) (bas : (⟨2, ![4096, 3]⟩ : Shape).Idx → EReal)

/-- The distances of point `row` to the 4096 basis vectors. -/
def gRow (row : Fin 65536) : Fin 4096 → EReal := fun j =>
  pdist (fun k => pos (ix3 (⟨row.val / 1024, by omega⟩ : Fin 64) (⟨row.val % 1024, by omega⟩ : Fin 1024) k))
    (fun k => bas (ix2 j k))

/-- The running minimum: after point n = 8 r + s, row p of the accumulator is the minimum of the distances of point
    2048 r + p to the basis vectors below 512 (s + 1) — given that the region is entered from the points reshaped
    (`hv0`) and the basis transposed (`hv1`). -/
theorem acc0_eq
    (hv0 : ∀ (row : Fin 65536) (k : Fin 3), (V c main_v0 : Vec Ideal S65536x3 .f32) (ix2 row k)
      = pos (ix3 (⟨row.val / 1024, by omega⟩ : Fin 64) (⟨row.val % 1024, by omega⟩ : Fin 1024) k))
    (hv1 : ∀ (k : Fin 3) (j : Fin 4096), (V c main_v1 : Vec Ideal S3x4096 .f32) (ix2 k j) = bas (ix2 j k)) :
    ∀ (n : ℕ) (hn : n < cfg0.N) (p : Fin 2048) (h : (n / 8) * 2048 + p.val < 65536),
      (acc0 V c n hn : Vec Ideal S2048x1 .f32) (ix2 p (0 : Fin 1))
        = minBelow inf (gRow pos bas ⟨(n / 8) * 2048 + p.val, h⟩) ((n % 8) * 512 + 512) := by
  have hN : cfg0.N = 256 := N_0
  have hblk : ∀ (t : Fin cfg0.N) (p : Fin 2048) (h : (t.val / 8) * 2048 + p.val < 65536) (q : Fin 512)
      (n0 : ℕ) (hn0 : n0 = (t.val % 8) * 512) (hq : n0 + q.val < 4096),
      pdist (fun k => (pblk V c t : Vec Ideal S2048x3 .f32) (ix2 p k)) (fun k => (qblk V c t : Vec Ideal S3x512 .f32) (ix2 k q))
        = gRow pos bas ⟨(t.val / 8) * 2048 + p.val, h⟩ ⟨n0 + q.val, hq⟩ := by
    intro t p h q n0 hn0 hq
    subst hn0
    unfold gRow
    congr 1
    · funext k
      rw [pblk_apply V c t p k h, hv0]
    · funext k
      rw [qblk_apply V c t k q hq, hv1]
  -- a reset point: the fold of one tile from +infinity
  have hreset : ∀ (t : Fin cfg0.N) (p : Fin 2048) (h : (t.val / 8) * 2048 + p.val < 65536), t.val % 8 = 0 →
      (acc0 V c t.val t.isLt : Vec Ideal S2048x1 .f32) (ix2 p (0 : Fin 1))
        = minBelow inf (gRow pos bas ⟨(t.val / 8) * 2048 + p.val, h⟩) ((t.val % 8) * 512 + 512) := by
    intro t p h h0
    rw [acc0_reset V c t h0, tileAcc_apply, accInit_apply]
    have key := minBelow_add (N := 4096) (B := 512) inf (gRow pos bas ⟨(t.val / 8) * 2048 + p.val, h⟩)
      (fun j => pdist (fun k => (pblk V c t : Vec Ideal S2048x3 .f32) (ix2 p k)) (fun k => (qblk V c t : Vec Ideal S3x512 .f32) (ix2 k j)))
      0 (by omega) (fun q => hblk t p h q 0 (by omega) (by have := q.isLt; omega))
    rw [minBelow_zero, Nat.zero_add] at key
    rw [show (t.val % 8) * 512 + 512 = 512 by omega]
    exact key
  intro n
  induction n with
  | zero =>
    intro hn p h
    exact hreset ⟨0, hn⟩ p h (by rfl)
  | succ n ih =>
    intro hn p h
    by_cases h0 : (n + 1) % 8 = 0
    · exact hreset ⟨n + 1, hn⟩ p h h0
    · rw [acc0_step V c ⟨n + 1, hn⟩ h0, tileAcc_apply]
      have hrow : (n / 8) * 2048 + p.val = ((n + 1) / 8) * 2048 + p.val := by omega
      have ihn := ih (Nat.lt_of_succ_lt hn) p (by omega)
      have hfin : (⟨(n / 8) * 2048 + p.val, by omega⟩ : Fin 65536) = ⟨((n + 1) / 8) * 2048 + p.val, h⟩ := Fin.ext hrow
      rw [hfin] at ihn
      have hidx : (acc0 V c ((⟨n + 1, hn⟩ : Fin cfg0.N).val - 1) (Nat.lt_of_le_of_lt (Nat.sub_le _ _) (⟨n + 1, hn⟩ : Fin cfg0.N).isLt))
          = acc0 V c n (Nat.lt_of_succ_lt hn) := rfl
      rw [hidx, ihn]
      have key := minBelow_add (N := 4096) (B := 512) inf (gRow pos bas ⟨((n + 1) / 8) * 2048 + p.val, h⟩)
        (fun j => pdist (fun k => (pblk V c ⟨n + 1, hn⟩ : Vec Ideal S2048x3 .f32) (ix2 p k)) (fun k => (qblk V c ⟨n + 1, hn⟩ : Vec Ideal S3x512 .f32) (ix2 k j)))
        ((n % 8) * 512 + 512) (by omega)
        (fun q => hblk ⟨n + 1, hn⟩ p h q ((n % 8) * 512 + 512) (by show (n % 8) * 512 + 512 = ((n + 1) % 8) * 512; omega) (by have := q.isLt; omega))
      rw [show ((n + 1) % 8) * 512 + 512 = ((n % 8) * 512 + 512) + 512 by omega]
      exact key

/-- The result array of the distance region, row by row. -/
def distRows : (⟨2, ![65536, 1]⟩ : Shape).Idx → EReal := fun i =>
  minDist pos bas (⟨(i 0).val / 1024, by have : (i 0).val < 65536 := (i 0).isLt; omega⟩ : Fin 64) (⟨(i 0).val % 1024, by omega⟩ : Fin 1024)

theorem arr0_eq
    (hv0 : ∀ (row : Fin 65536) (k : Fin 3), (V c main_v0 : Vec Ideal S65536x3 .f32) (ix2 row k)
      = pos (ix3 (⟨row.val / 1024, by omega⟩ : Fin 64) (⟨row.val % 1024, by omega⟩ : Fin 1024) k))
    (hv1 : ∀ (k : Fin 3) (j : Fin 4096), (V c main_v1 : Vec Ideal S3x4096 .f32) (ix2 k j) = bas (ix2 j k)) :
    ((dat0 V c).arrAt 2 cfg0.N : Vec Ideal S65536x1 .f32) = distRows pos bas := by
  refine arrAt0_2 V c (distRows pos bas) (fun t ht p h => ?_)
  rw [acc0_eq V c pos bas hv0 hv1 t.val t.isLt p h, ht]
  exact minBelow_all inf _ _ (by omega)

/-- The rows reshaped to [64, 1024] are the array of minimum distances. -/
theorem distRows_reshape :
    shapeCast S64x1024 (distRows pos bas : Vec Ideal S65536x1 .f32) shapeCasts_S65536x1_S64x1024 = minDistArr pos bas := by
  funext i
  obtain ⟨b, n, rfl⟩ : ∃ (b : Fin 64) (n : Fin 1024), i = ix2 b n := ⟨i 0, i 1, eq_ix2 i⟩
  have hk : b.val * 1024 + n.val < 65536 := by have := b.isLt; have := n.isLt; omega
  refine (shapeCast_apply (s := S65536x1) (t := S64x1024) _ _ _ (ix2 (⟨b.val * 1024 + n.val, hk⟩ : Fin 65536) (0 : Fin 1)) ?_).trans ?_
  · rw [Shape.rowMajor_val_two, Shape.rowMajor_val_two]
    show (b.val * 1024 + n.val) * 1 + 0 = b.val * 1024 + n.val
    omega
  · show minDist pos bas _ _ = minDist pos bas b n
    congr 1
    · exact Fin.ext (by show (b.val * 1024 + n.val) / 1024 = b.val; have := n.isLt; omega)
    · exact Fin.ext (by show (b.val * 1024 + n.val) % 1024 = n.val; have := n.isLt; omega)

end Rows

variable (m : (ℓ : Loc nD τ sig) → Buf (Elt Ideal) ℓ)

/-- Row `row` of the reshaped points is point (row / 1024, row % 1024). -/
theorem v0_apply (c : Dev nD) (row : Fin 65536) (k : Fin 3) :
    (V1 m c main_v0 : Vec Ideal S65536x3 .f32) (ix2 row k)
      = (m ((c : Thread nD τ).loc main_arg0) : Vec Ideal S64x1024x3 .f32) (ix3 (⟨row.val / 1024, by omega⟩ : Fin 64) (⟨row.val % 1024, by omega⟩ : Fin 1024) k) := by
  rw [V1_main_v0]
  refine shapeCast_apply (s := S64x1024x3) (t := S65536x3) _ shapeCasts_S64x1024x3_S65536x3 (ix2 row k) _ ?_
  rw [Shape.rowMajor_val_three, Shape.rowMajor_val_two]
  show (row.val / 1024 * 1024 + row.val % 1024) * 3 + k.val = row.val * 3 + k.val
  omega

/-- Entry (k, j) of the transposed basis is coordinate k of basis vector j. -/
theorem v1_apply (c : Dev nD) (k : Fin 3) (j : Fin 4096) :
    (V1 m c main_v1 : Vec Ideal S3x4096 .f32) (ix2 k j) = (m ((c : Thread nD τ).loc main_arg1) : Vec Ideal S4096x3 .f32) (ix2 j k) := by
  rw [V1_main_v1]
  exact transpose_apply (s := S4096x3) (t := S3x4096) _ _ transposes_S4096x3_S3x4096_1_0 (ix2 k j) (ix2 j k) (fun b => by fin_cases b <;> rfl)

/-- THE DISTANCE REGION'S VALUE: its result reshaped to [64, 1024] is the array of minimum distances. -/
theorem kerDist_eq (c : Dev nD) :
    shapeCast S64x1024 ((dat0 (V1 m) c).arrAt 2 cfg0.N : Vec Ideal S65536x1 .f32) shapeCasts_S65536x1_S64x1024
      = minDistArr (m ((c : Thread nD τ).loc main_arg0)) (m ((c : Thread nD τ).loc main_arg1)) := by
  rw [arr0_eq (V1 m) c (m ((c : Thread nD τ).loc main_arg0)) (m ((c : Thread nD τ).loc main_arg1)) (v0_apply m c) (v1_apply m c)]
  exact distRows_reshape _ _

end Cert.KernelIdeal.Hand

end
-- ==== Proof.Spec.lean ====
/-
  The reference's result as two functions of the argument arrays, in the reference's own operations: the array of
  minimum distances — for point (b, n) the minimum over the 4096 basis vectors j of
  sqrt (max (|p|^2 + |q_j|^2 - 2 p.q_j) eps) — and the four dense layers applied to such an array.
-/
import proofs.«178117_j33715493273844_1_alg».proof.ReferenceIdeal
import proofs.«178117_j33715493273844_1_alg».proof.Proof.Gen.ReferenceIdeal
import Idealize.ShloMosaic.PureOps.Ideal

noncomputable section

namespace Cert.ReferenceIdeal.Spec

open Cert.ReferenceIdeal Cert.ReferenceIdeal.Facts₀ Cert.ReferenceIdeal.Facts Idealize.ShloMosaic Idealize.ShloMosaic.TcCoe

variable {F : FTy → Type} [FloatOps F]

/-- The minimum distance of every point to the basis, as the reference computes it. -/
def refDist (pos : FVec F S64x1024x3 .f32) (basis : FVec F S4096x3 .f32) : FVec F S64x1024 .f32 :=
  Host.reduce FloatOps.minimumf (Host.sqrt (maximumf (subf (addf (broadcastInDim S64x1024x4096 ![0, 1, 2] bcast_S64x1024x1_S64x1024x4096_0_1_2 (broadcastInDim S64x1024x1 ![0, 1] bcast_S64x1024_S64x1024x1_0_1 (Host.reduceAdd (mulf pos pos) (constant S_ .f32 0x00000000#32) reducesTo_S64x1024x3_S64x1024_d2 h_S_))) (broadcastInDim S64x1024x4096 ![0, 1, 2] bcast_S1x1x4096_S64x1024x4096_0_1_2 (broadcastInDim S1x1x4096 ![2] bcast_S4096_S1x1x4096_2 (Host.reduceAdd (mulf basis basis) (constant S_ .f32 0x00000000#32) reducesTo_S4096x3_S4096_d1 h_S_)))) (mulf (broadcastInDim S64x1024x4096 ![] bcast_S_S64x1024x4096 (constant S_ .f32 0x40000000#32)) (Host.dotGeneral dot_S64x1024x3_S4096x3_S64x1024x4096_2_1_01_0_n_n none pos basis))) (broadcastInDim S64x1024x4096 ![] bcast_S_S64x1024x4096 (constant S_ .f32 0x2B8CBCCC#32)))) (constant S_ .f32 0x7F800000#32) reducesTo_S64x1024x4096_S64x1024_d2 h_S_

/-- One hidden layer of the reference: `max (x W + b) 0`. -/
def refLayer1 (x : FVec F S64x1024 .f32) (W : FVec F S1024x2048 .f32) (b : FVec F S2048 .f32) : FVec F S64x2048 .f32 :=
  maximumf (addf (Host.dotGeneral dot_S64x1024_S1024x2048_S64x2048_1_0_0_1_n_n none x W) (broadcastInDim S64x2048 ![0, 1] bcast_S1x2048_S64x2048_0_1 (broadcastInDim S1x2048 ![1] bcast_S2048_S1x2048_1 b))) (broadcastInDim S64x2048 ![] bcast_S_S64x2048 (constant S_ .f32 0x00000000#32))

def refLayer2 (x : FVec F S64x2048 .f32) (W : FVec F S2048x2048 .f32) (b : FVec F S2048 .f32) : FVec F S64x2048 .f32 :=
  maximumf (addf (Host.dotGeneral dot_S64x2048_S2048x2048_S64x2048_1_0_0_1_n_n none x W) (broadcastInDim S64x2048 ![0, 1] bcast_S1x2048_S64x2048_0_1 (broadcastInDim S1x2048 ![1] bcast_S2048_S1x2048_1 b))) (broadcastInDim S64x2048 ![] bcast_S_S64x2048 (constant S_ .f32 0x00000000#32))

/-- The last layer: `x W + b`. -/
def refLast (x : FVec F S64x2048 .f32) (W : FVec F S2048x512 .f32) (b : FVec F S512 .f32) : FVec F S64x512 .f32 :=
  addf (Host.dotGeneral dot_S64x2048_S2048x512_S64x512_1_0_0_1_n_n none x W) (broadcastInDim S64x512 ![0, 1] bcast_S1x512_S64x512_0_1 (broadcastInDim S1x512 ![1] bcast_S512_S1x512_1 b))

/-- The four dense layers of the reference. -/
def refMlp (x : FVec F S64x1024 .f32) (W0 : FVec F S1024x2048 .f32) (b0 : FVec F S2048 .f32) (W1 : FVec F S2048x2048 .f32) (b1 : FVec F S2048 .f32)
    (W2 : FVec F S2048x2048 .f32) (b2 : FVec F S2048 .f32) (W3 : FVec F S2048x512 .f32) (b3 : FVec F S512 .f32) : FVec F S64x512 .f32 :=
  refLast (refLayer2 (refLayer2 (refLayer1 x W0 b0) W1 b1) W2 b2) W3 b3

end Cert.ReferenceIdeal.Spec

end
-- ==== Proof.ValMlp.lean ====
/-
  The dense layers over the extended reals: the kernel's layers on weights converted to a shorter float format are
  the reference's layers on the weights themselves. A change of float format is the identity here; the matrix
  unit's product into a zero accumulator and the host's general product are the same sum of products, entry by
  entry; the bias row broadcast over the rows is the same array on both sides; and max with the zero array is the
  same operation.
-/
import proofs.«178117_j33715493273844_1_alg».proof.Proof.KI.Run1
import proofs.«178117_j33715493273844_1_alg».proof.Proof.Spec
import proofs.«178117_j33715493273844_1_alg».proof.Proof.LibPlainDot
import proofs.«178117_j33715493273844_1_alg».proof.Proof.LibRowLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen
open Cert.ReferenceIdeal.Spec

/-! ## One layer, entry by entry -/

/-- The kernel's bias: the vector viewed as a one-row matrix and spread over the rows reads, at (p, q), entry q. -/
theorem kbias_apply {m n : ℕ} (b : FVec Ideal ⟨1, ![n]⟩ .f32) (h1 : (⟨1, ![n]⟩ : Shape).ShapeCasts ⟨2, ![1, n]⟩)
    (h2 : (⟨2, ![1, n]⟩ : Shape).Broadcasts ⟨2, ![m, n]⟩) (p : Fin m) (q : Fin n) :
    broadcastTo ⟨2, ![m, n]⟩ (shapeCast ⟨2, ![1, n]⟩ b h1) h2 (ix2 p q) = b (ix1 q) := by
  rw [RowLayout.broadcastTo_1b_ab_apply, shapeCast_addUnit_apply ![n] b h1]
  refine congrArg b (funext fun a => ?_)
  match a with
  | ⟨0, _⟩ => rfl

/-- The reference's bias: the vector placed along the second axis of a one-row matrix, that row placed over the rows,
    reads, at (p, q), entry q. -/
theorem rbias_apply {m n : ℕ} (b : FVec Ideal ⟨1, ![n]⟩ .f32)
    (h3 : (⟨2, ![1, n]⟩ : Shape).BroadcastsInDim ⟨2, ![m, n]⟩ ![0, 1]) (h4 : (⟨1, ![n]⟩ : Shape).BroadcastsInDim ⟨2, ![1, n]⟩ ![1])
    (p : Fin m) (q : Fin n) :
    broadcastInDim ⟨2, ![m, n]⟩ ![0, 1] h3 (broadcastInDim ⟨2, ![1, n]⟩ ![1] h4 b) (ix2 p q) = b (ix1 q) := by
  rw [broadcastInDim_apply ![0, 1] h3 _ (ix2 p q) (ix2 (0 : Fin 1) q) fun a => by
    match a with
    | ⟨0, _⟩ => rfl
    | ⟨1, _⟩ =>
      show q.val = if n = 1 then 0 else q.val
      split
      · have := q.isLt; omega
      · rfl]
  exact broadcastInDim_apply ![1] h4 b (ix2 (0 : Fin 1) q) (ix1 q) fun a => by
    match a with
    | ⟨0, _⟩ =>
      show q.val = if n = 1 then 0 else q.val
      split
      · have := q.isLt; omega
      · rfl

/-- The zero the kernel takes the maximum with and the reference's are the same array. -/
theorem zsplat_eq {m n : ℕ} (h5 : (⟨0, ![]⟩ : Shape).BroadcastsInDim ⟨2, ![m, n]⟩ ![]) :
    (broadcast ⟨2, ![m, n]⟩ (Scalar.ofBits .f32 0x00000000#32) : FVec Ideal ⟨2, ![m, n]⟩ .f32)
      = broadcastInDim ⟨2, ![m, n]⟩ ![] h5 (constant ⟨0, ![]⟩ .f32 0x00000000#32) := rfl

/-- The affine part of a layer: the matrix unit's product of the converted operands into a zero accumulator plus the
    bias row is the host's product of the operands themselves plus the bias row. -/
theorem affine_eq {m k n : ℕ} (dK dR : DotDims ⟨2, ![m, k]⟩ ⟨2, ![k, n]⟩ ⟨2, ![m, n]⟩) (hK : PlainDot.IsPlain dK) (hR : PlainDot.IsPlain dR)
    (a : FVec Ideal ⟨2, ![m, k]⟩ .f32) (W : FVec Ideal ⟨2, ![k, n]⟩ .f32) (b : FVec Ideal ⟨1, ![n]⟩ .f32)
    (ha hW : FTy.bf16.bits < FTy.f32.bits)
    (h1 : (⟨1, ![n]⟩ : Shape).ShapeCasts ⟨2, ![1, n]⟩) (h2 : (⟨2, ![1, n]⟩ : Shape).Broadcasts ⟨2, ![m, n]⟩)
    (h3 : (⟨2, ![1, n]⟩ : Shape).BroadcastsInDim ⟨2, ![m, n]⟩ ![0, 1]) (h4 : (⟨1, ![n]⟩ : Shape).BroadcastsInDim ⟨2, ![1, n]⟩ ![1]) :
    addf (matmul dK none (truncf .bf16 a ha : FVec Ideal ⟨2, ![m, k]⟩ .bf16) (truncf .bf16 W hW : FVec Ideal ⟨2, ![k, n]⟩ .bf16) (constant ⟨2, ![m, n]⟩ .f32 0x00000000#32))
        (broadcastTo ⟨2, ![m, n]⟩ (shapeCast ⟨2, ![1, n]⟩ b h1) h2)
      = addf (Host.dotGeneral dR none a W) (broadcastInDim ⟨2, ![m, n]⟩ ![0, 1] h3 (broadcastInDim ⟨2, ![1, n]⟩ ![1] h4 b)) := by
  funext j
  obtain ⟨p, q, rfl⟩ : ∃ p q, j = ix2 p q := ⟨j 0, j 1, eq_ix2 j⟩
  rw [addf_apply, addf_apply, PlainDot.matmul_zero_apply hK,
    show Host.dotGeneral dR none a W (ix2 p q) = _ from PlainDot.dotGeneral_apply hR none .single a W p q,
    kbias_apply, rbias_apply]
  simp only [truncf_apply]

/-! ## The four layers -/

theorem plainK1 : PlainDot.IsPlain dot_S64x1024_S1024x2048_S64x2048_1_0_0_1_n_n := ⟨rfl, rfl, rfl, rfl, rfl, rfl⟩
theorem plainK2 : PlainDot.IsPlain dot_S64x2048_S2048x2048_S64x2048_1_0_0_1_n_n := ⟨rfl, rfl, rfl, rfl, rfl, rfl⟩
theorem plainK4 : PlainDot.IsPlain dot_S64x2048_S2048x512_S64x512_1_0_0_1_n_n := ⟨rfl, rfl, rfl, rfl, rfl, rfl⟩
theorem plainR1 : PlainDot.IsPlain Cert.ReferenceIdeal.dot_S64x1024_S1024x2048_S64x2048_1_0_0_1_n_n := ⟨rfl, rfl, rfl, rfl, rfl, rfl⟩
theorem plainR2 : PlainDot.IsPlain Cert.ReferenceIdeal.dot_S64x2048_S2048x2048_S64x2048_1_0_0_1_n_n := ⟨rfl, rfl, rfl, rfl, rfl, rfl⟩
theorem plainR4 : PlainDot.IsPlain Cert.ReferenceIdeal.dot_S64x2048_S2048x512_S64x512_1_0_0_1_n_n := ⟨rfl, rfl, rfl, rfl, rfl, rfl⟩

/-- The first hidden layer. -/
theorem hidden1_eq (x : FVec Ideal S64x1024 .f32) (W : FVec Ideal S1024x2048 .f32) (b : FVec Ideal S2048 .f32)
    (ha hW : FTy.bf16.bits < FTy.f32.bits) (h1 : S2048.ShapeCasts S1x2048) (h2 : S1x2048.Broadcasts S64x2048) :
    maximumf (addf (matmul dot_S64x1024_S1024x2048_S64x2048_1_0_0_1_n_n none (truncf .bf16 x ha : FVec Ideal S64x1024 .bf16) (truncf .bf16 W hW : FVec Ideal S1024x2048 .bf16) (constant S64x2048 .f32 0x00000000#32))
        (broadcastTo S64x2048 (shapeCast S1x2048 b h1) h2)) (broadcast S64x2048 (Scalar.ofBits .f32 0x00000000#32))
      = refLayer1 x W b := by
  unfold refLayer1
  rw [affine_eq _ _ plainK1 plainR1, zsplat_eq]

/-- A later hidden layer. -/
theorem hidden2_eq (x : FVec Ideal S64x2048 .f32) (W : FVec Ideal S2048x2048 .f32) (b : FVec Ideal S2048 .f32)
    (ha hW : FTy.bf16.bits < FTy.f32.bits) (h1 : S2048.ShapeCasts S1x2048) (h2 : S1x2048.Broadcasts S64x2048) :
    maximumf (addf (matmul dot_S64x2048_S2048x2048_S64x2048_1_0_0_1_n_n none (truncf .bf16 x ha : FVec Ideal S64x2048 .bf16) (truncf .bf16 W hW : FVec Ideal S2048x2048 .bf16) (constant S64x2048 .f32 0x00000000#32))
        (broadcastTo S64x2048 (shapeCast S1x2048 b h1) h2)) (broadcast S64x2048 (Scalar.ofBits .f32 0x00000000#32))
      = refLayer2 x W b := by
  unfold refLayer2
  rw [affine_eq _ _ plainK2 plainR2, zsplat_eq]

/-- The last layer. -/
theorem last_eq (x : FVec Ideal S64x2048 .f32) (W : FVec Ideal S2048x512 .f32) (b : FVec Ideal S512 .f32)
    (ha hW : FTy.bf16.bits < FTy.f32.bits) (h1 : S512.ShapeCasts S1x512) (h2 : S1x512.Broadcasts S64x512) :
    addf (matmul dot_S64x2048_S2048x512_S64x512_1_0_0_1_n_n none (truncf .bf16 x ha : FVec Ideal S64x2048 .bf16) (truncf .bf16 W hW : FVec Ideal S2048x512 .bf16) (constant S64x512 .f32 0x00000000#32))
        (broadcastTo S64x512 (shapeCast S1x512 b h1) h2)
      = refLast x W b := by
  unfold refLast
  rw [affine_eq _ _ plainK4 plainR4]

/-- The kernel's four layers on the converted weights are the reference's four layers. -/
theorem mlp_eq (x : FVec Ideal S64x1024 .f32) (W0 : FVec Ideal S1024x2048 .f32) (b0 : FVec Ideal S2048 .f32)
    (W1 : FVec Ideal S2048x2048 .f32) (b1 : FVec Ideal S2048 .f32) (W2 : FVec Ideal S2048x2048 .f32) (b2 : FVec Ideal S2048 .f32)
    (W3 : FVec Ideal S2048x512 .f32) (b3 : FVec Ideal S512 .f32) :
    mlpOut (F := Ideal) x (truncf .bf16 W0 bitsLt_bf16_f32 : FVec Ideal S1024x2048 .bf16) b0
        (truncf .bf16 W1 bitsLt_bf16_f32 : FVec Ideal S2048x2048 .bf16) b1
        (truncf .bf16 W2 bitsLt_bf16_f32 : FVec Ideal S2048x2048 .bf16) b2
        (truncf .bf16 W3 bitsLt_bf16_f32 : FVec Ideal S2048x512 .bf16) b3
      = refMlp (F := Ideal) x W0 b0 W1 b1 W2 b2 W3 b3 := by
  unfold mlpOut k1_pay1 k1_pay2 k1_pay3 refMlp
  dsimp only
  simp only [shapeCast_self]
  rw [hidden1_eq x W0 b0, hidden2_eq (refLayer1 x W0 b0) W1 b1, hidden2_eq (refLayer2 (refLayer1 x W0 b0) W1 b1) W2 b2,
    last_eq (refLayer2 (refLayer2 (refLayer1 x W0 b0) W1 b1) W2 b2) W3 b3]

end Cert.KernelIdeal.Hand

end
-- ==== Proof.ValRun.lean ====
/-
  The idealized kernel's run with its result named by the specification: the result buffer ends at the four dense
  layers (on the weights as launched: a change of float format is the identity over the extended reals) of the
  array of minimum distances of the launch contents, and the arguments end unchanged.
-/
import proofs.«178117_j33715493273844_1_alg».proof.Proof.KI.MainRun
import proofs.«178117_j33715493273844_1_alg».proof.Proof.KI.Entry
import proofs.«178117_j33715493273844_1_alg».proof.Proof.KI.Arr
import proofs.«178117_j33715493273844_1_alg».proof.Proof.ValDist
import proofs.«178117_j33715493273844_1_alg».proof.Proof.ValMlp

set_option maxRecDepth 16384

noncomputable section

namespace Cert.KernelIdeal.Hand

open Idealize.ShloMosaic Idealize.ShloMosaic.TcCoe Idealize.ShloMosaic.ValueIdx
open Cert.KernelIdeal Cert.KernelIdeal.Gen
open Idealize.SL.Sem Cert.DistSpec Cert.ReferenceIdeal.Spec

/-- The specification of the whole program on the kernel's launch memory. -/
def kerSpec (m : (ℓ : Loc nD τ sig) → Buf (Elt Ideal) ℓ) (c : Dev nD) : Buf (Elt Ideal) ((c.tc : Thread nD τ).loc main_v8) :=
  refMlp (F := Ideal) (minDistArr (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The dense layers of equal operands are equal. -/
theorem mlpOut_congr {x0 x0' : Vec Ideal S64x1024 .f32} {x1 x1' : Vec Ideal S1024x2048 .bf16} {x2 x2' : Vec Ideal S2048 .f32}
    {x3 x3' : Vec Ideal S2048x2048 .bf16} {x4 x4' : Vec Ideal S2048 .f32} {x5 x5' : Vec Ideal S2048x2048 .bf16}
    {x6 x6' : Vec Ideal S2048 .f32} {x7 x7' : Vec Ideal S2048x512 .bf16} {x8 x8' : Vec Ideal S512 .f32}
    (h0 : x0 = x0') (h1 : x1 = x1') (h2 : x2 = x2') (h3 : x3 = x3') (h4 : x4 = x4') (h5 : x5 = x5') (h6 : x6 = x6')
    (h7 : x7 = x7') (h8 : x8 = x8') :
    mlpOut x0 x1 x2 x3 x4 x5 x6 x7 x8 = mlpOut x0' x1' x2' x3' x4' x5' x6' x7' x8' := by
  subst h0 h1 h2 h3 h4 h5 h6 h7 h8
  rfl

/-- What the result buffer ends holding is the specification: the dense-layers region writes the layers of what it
    is entered from, which are the distance region's result reshaped, the weights converted and the bias vectors; the
    layers on converted weights are the reference's layers on the weights; and the distance region's result reshaped
    is the array of minimum distances. -/
theorem result_eq (m : (ℓ : Loc nD τ sig) → Buf (Elt Ideal) ℓ) (c : Dev nD) :
    W4 m c (Proc.devRef .tc main_v8) = kerSpec m c := by
  refine (W4_main_v8 m c).trans ?_
  refine (arrAt1_9 (V3 m) c).trans ?_
  refine (mlpOut_congr (V3_main_v3 m c) (V3_main_v4 m c) (V3_main_arg3 m c) (V3_main_v5 m c) (V3_main_arg5 m c)
    (V3_main_v6 m c) (V3_main_arg7 m c) (V3_main_v7 m c) (V3_main_arg9 m c)).trans ?_
  refine (mlp_eq _ _ _ _ _ _ _ _ _).trans ?_
  unfold kerSpec
  exact congrArg (fun x => refMlp (F := Ideal) x _ _ _ _ _ _ _ _) (kerDist_eq m c)

theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = kerSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  -- the run ends with every unscoped buffer at the last boundary's contents: the result at the specification, each
  -- argument at what it was launched with
  (θ_run (defs (F := Ideal)) _ _).mono
    (fun r h c =>
      ⟨(h c _ (mem_uc main_v8 (by decide))).trans (result_eq m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c),
       (h c _ (mem_uc main_arg9 (by decide))).trans (W4_main_arg9 m c)⟩)
    (run_all m ρ)

end Cert.KernelIdeal.Hand

end
-- ==== Proof.RefDist.lean ====
/-
  The reference's array of minimum distances, entry by entry over the extended reals: at (b, n) it is the fold of
  min from +infinity, over the 4096 basis vectors j, of sqrt (max (|p|^2 + |q_j|^2 - 2 p.q_j) eps) — the squared
  norms as sums over the three coordinates from the zero word, the inner products as the general product's sum.
-/
import proofs.«178117_j33715493273844_1_alg».proof.Proof.Spec
import proofs.«178117_j33715493273844_1_alg».proof.Proof.DistSpec
import proofs.«178117_j33715493273844_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Facts₀ Cert.ReferenceIdeal.Facts Cert.ReferenceIdeal.Spec Cert.DistSpec
open Cert.ReferenceIdeal.Read

/-! ## A minimum along the last axis of a three-dimensional array, read at an entry -/

/-- The reduced index (b, c) with the last coordinate k put back is (b, c, k). -/
theorem lift_ix3 {m n p : Nat} (h : (⟨3, ![m, n, p]⟩ : Shape).Reduces [2] (⟨2, ![m, n]⟩ : Shape)) (b : Fin m) (c : Fin n)
    (k : Fin ((⟨3, ![m, n, p]⟩ : Shape).size 2)) : h.lift (ix2 b c) k = ix3 b c (⟨k.val, k.isLt⟩ : Fin p) := by
  funext a; apply Fin.ext
  fin_cases a <;> rfl

/-- A host reduction with a minimum body over the last of three axes, at (b, c): the minimum of the initial value and
    of the entries (b, c, k), in whatever order they are combined. -/
theorem hostReduceMin3_apply {φ : FTy} {u : Shape} {m n p : Nat} (x : (⟨3, ![m, n, p]⟩ : Shape).Idx → Ideal φ)
    (init : u.Idx → Ideal φ) (h' : (⟨3, ![m, n, p]⟩ : Shape).ReducesTo [2] (⟨2, ![m, n]⟩ : Shape))
    (h : (⟨3, ![m, n, p]⟩ : Shape).Reduces [2] (⟨2, ![m, n]⟩ : Shape)) (hu : 0 < u.numel) (b : Fin m) (c : Fin n) :
    Host.reduce (FloatOps.minimumf (F := Ideal) (φ := φ)) x init h' hu (ix2 b c)
      = (Finset.univ : Finset (Fin p)).fold min (init (Shape.Idx.first hu)) (fun k => x (ix3 b c k)) := by
  rw [Host.reduce_eq_fold_single (FloatOps.minimumf (F := Ideal) (φ := φ)) x init h' h hu (ix2 b c)]
  show (Finset.univ : Finset (Fin p)).fold min (init (Shape.Idx.first hu)) (x ∘ h.lift (ix2 b c)) = _
  exact Finset.fold_congr fun k _ => congrArg x (lift_ix3 h b c k)

/-! ## The reference's stages at the entry (b, n, j) -/

/-- The row of the squared norms' sum: (b, n) with coordinate k put back. -/
theorem idx_p2 (b : Fin 64) (n : Fin 1024) (j : Fin 4096) (k : Fin 3) :
    idx_main_v1 (idx_main_v2 (idx_main_v7 (ix3 b n j))) k = ix3 b n k :=
  funext fun a => Fin.ext (by match a with | ⟨0, _⟩ => rfl | ⟨1, _⟩ => rfl | ⟨2, _⟩ => rfl)

/-- The basis vector's squared norm is read at j, its coordinates at (j, k). -/
theorem idx_q2 (b : Fin 64) (n : Fin 1024) (j : Fin 4096) (k : Fin 3) :
    idx_main_v4 (idx_main_v6 (idx_main_v8 (ix3 b n j))) k = ix2 j k :=
  funext fun a => Fin.ext (by match a with | ⟨0, _⟩ => rfl | ⟨1, _⟩ => rfl)

/-- The inner product's left factor at (b, n, j) and k is the point's coordinate k. -/
theorem idx_pq_l (b : Fin 64) (n : Fin 1024) (j : Fin 4096) (k : Fin 3) :
    lidx_main_v5 (ix3 b n j) k = ix3 b n k :=
  funext fun a => Fin.ext (by match a with | ⟨0, _⟩ => rfl | ⟨1, _⟩ => rfl | ⟨2, _⟩ => rfl)

/-- The inner product's right factor at (b, n, j) and k is the basis vector's coordinate k. -/
theorem idx_pq_r (b : Fin 64) (n : Fin 1024) (j : Fin 4096) (k : Fin 3) :
    ridx_main_v5 (ix3 b n j) k = ix2 j k :=
  funext fun a => Fin.ext (by match a with | ⟨0, _⟩ => rfl | ⟨1, _⟩ => rfl)

/-- The distance the reference computes at (b, n, j) is the distance of point (b, n) to basis vector j. -/
theorem dist_apply (pos : FVec Ideal S64x1024x3 .f32) (basis : FVec Ideal S4096x3 .f32) (b : Fin 64) (n : Fin 1024)
    (j : Fin 4096) :
    val_main_v15 (F := Ideal) pos basis (ix3 b n j)
      = pdist (fun k => pos (ix3 b n k)) (fun k => basis (ix2 j k)) := by
  rw [val_main_v15_apply, val_main_v14_apply, val_main_v12_apply, val_main_v13_apply, val_main_cst_2_apply,
    val_main_v9_apply, val_main_v11_apply, val_main_v10_apply, val_main_cst_1_apply, val_main_v5_apply,
    val_main_v7_apply, val_main_v2_apply, val_main_v1_apply, val_main_cst_apply,
    val_main_v8_apply, val_main_v6_apply, val_main_v4_apply, val_main_cst_0_apply]
  simp only [val_main_v0_apply, val_main_v3_apply, idx_p2, idx_q2, idx_pq_l, idx_pq_r, Ideal.hostUnary_sqrt_def,
    Ideal.maximumf_def, Ideal.subf_def, Ideal.addf_def, Ideal.mulf_def, Ideal.ofBits_def, Ideal.ofBits_zero_f32, zero_add]
  rfl

/-- The reference's minimum-distance array is its stage of that name: the same operations, named one by one. -/
theorem refDist_eq_stage {F : FTy → Type} [FloatOps F] (pos : FVec F S64x1024x3 .f32) (basis : FVec F S4096x3 .f32) :
    refDist (F := F) pos basis = val_main_v16 (F := F) pos basis := rfl

/-- The reference's minimum-distance array is the entrywise one. -/
theorem refDist_eq (pos : FVec Ideal S64x1024x3 .f32) (basis : FVec Ideal S4096x3 .f32) :
    refDist (F := Ideal) pos basis = minDistArr pos basis := by
  rw [refDist_eq_stage]
  funext i
  obtain ⟨b, n, rfl⟩ : ∃ (b : Fin 64) (n : Fin 1024), i = ix2 b n := ⟨i 0, i 1, eq_ix2 i⟩
  show val_main_v16 (F := Ideal) pos basis (ix2 b n) = minDist pos basis b n
  have hstage : ∀ j : Fin 4096, val_main_v15 (F := Ideal) pos basis (ix3 b n j)
      = pdist (fun k => pos (ix3 b n k)) (fun k => basis (ix2 j k)) := dist_apply pos basis b n
  unfold val_main_v16 minDist
  generalize val_main_v15 (F := Ideal) pos basis = y at hstage ⊢
  rw [hostReduceMin3_apply y _ reducesTo_S64x1024x4096_S64x1024_d2 (by decide) h_S_ b n]
  have hinit : val_main_cst_3 (F := Ideal) (Shape.Idx.first h_S_) = inf := rfl
  rw [hinit]
  exact Finset.fold_congr fun j _ => hstage j

end Cert.ReferenceIdeal.RefValue

end
-- ==== Proof.RefRun.lean ====
/-
  The reference's run with its result named by the specification: every weakly fair execution of the reference
  ends with its result at the four dense layers of the array of minimum distances of the launch contents, and its
  arguments unchanged.
-/
import proofs.«178117_j33715493273844_1_alg».proof.Proof.RefDist
import proofs.«178117_j33715493273844_1_alg».proof.Proof.Gen.ReferenceIdeal.Run

set_option maxRecDepth 16384

noncomputable section

namespace Cert.ReferenceIdeal.RefValue

open Idealize.ShloMosaic Idealize.ShloMosaic.TcCoe Idealize.SL.Sem
open Cert.ReferenceIdeal Cert.ReferenceIdeal.Spec Cert.DistSpec

/-- The specification of the whole program on the reference's launch memory. -/
def specOf (m : (ℓ : Loc nD τ sig) → Buf (Elt Ideal) ℓ) (c : Dev nD) : Buf (Elt Ideal) ((c.tc : Thread nD τ).loc main_v35) :=
  refMlp (F := Ideal) (minDistArr (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = specOf m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) := by
  refine (θ_run (defs (F := Ideal)) _ _).mono (fun _ h c => ⟨(h c).1.trans ?_, (h c).2⟩)
    (Cert.ReferenceIdeal.Value.run (F := Ideal) m ρ)
  unfold specOf
  rw [← refDist_eq]
  unfold refMlp refLast refLayer2 refLayer1 refDist
  rfl

end Cert.ReferenceIdeal.RefValue

end
-- ==== Proof.lean ====
/-
  The certificate of the pairwise-distance kernel followed by four dense layers, against its reference.

  The program is two kernel regions among host operations. The first, over a 32 x 8 grid, computes for each of the
  65536 points its minimum distance to 4096 basis vectors, 512 at a time, keeping a running minimum in a scratch
  accumulator that is reset at the first tile of a row of the grid and copied out at the last; the second applies
  three layers max (x W + b) 0 and a last layer x W + b in one grid point. The frames (both float instances)
  run @main as four segments — host stretch, region, host stretch, region — each region entered from every
  unscoped buffer at named contents; the distance region's invariant carries the accumulator's contents point by
  point. Over the extended reals the running minimum over the eight tiles is the minimum over the whole basis (min
  is associative, commutative and idempotent: no finiteness is used), a change of float format is the identity and
  the matrix unit's product into a zero accumulator is the host's general product, so both programs end at the same
  function of the arguments: the dense layers of the array of minimum distances.
-/
import proofs.«178117_j33715493273844_1_alg».proof.Defs
import proofs.«178117_j33715493273844_1_alg».proof.Proof.Gen.Kernel
import proofs.«178117_j33715493273844_1_alg».proof.Proof.Gen.KernelIdeal
import proofs.«178117_j33715493273844_1_alg».proof.Proof.Gen.ReferenceIdeal
import proofs.«178117_j33715493273844_1_alg».proof.Proof.Gen.Pre_finite_inputs
import proofs.«178117_j33715493273844_1_alg».proof.Proof.K.Frame
import proofs.«178117_j33715493273844_1_alg».proof.Proof.KI.Frame
import proofs.«178117_j33715493273844_1_alg».proof.Proof.ValRun
import proofs.«178117_j33715493273844_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame_run (F := Bits) m ρ

/-- So does the idealized kernel. -/
theorem frame_ki : Cert.frame_KernelIdeal := fun m ρ _ => Cert.KernelIdeal.Hand.frame_run (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.ref_run m ρ)

/-- Both idealized programs end at the dense layers of the array of minimum distances of their arguments, which agree. -/
theorem algebraic : Cert.algebraic_KernelIdeal_ReferenceIdeal := by
  intro m ρ m' ρ' _ hagree
  refine ⟨fun c => Cert.KernelIdeal.Hand.kerSpec m c, Cert.KernelIdeal.Hand.value_run m ρ, ?_⟩
  refine (θ_run Cert.ReferenceIdeal.defs _ _).mono (fun _ h c => ⟨(h c).1.trans ?_, (h c).2⟩)
    (Cert.ReferenceIdeal.RefValue.ref_run m' ρ')
  unfold Cert.ReferenceIdeal.RefValue.specOf Cert.KernelIdeal.Hand.kerSpec
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
